-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S128x1024 : Shape := ⟨2, ![128, 1024]⟩
abbrev S128 : Shape := ⟨1, ![128]⟩
abbrev S16x1024 : Shape := ⟨2, ![16, 1024]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_
  bcast_S_S256x30 : S_.BroadcastsInDim S256x30 (![] : Fin 0 → Fin S256x30.rank)
  reducesTo_S256x30_S_d0_1 : S256x30.ReducesTo [0, 1] S_
  bcast_S_S256 : S_.BroadcastsInDim S256 (![] : Fin 0 → Fin S256.rank)
  reducesTo_S256_S_d0 : S256.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S65536 : S_.BroadcastsInDim S65536 (![] : Fin 0 → Fin S65536.rank)
  reducesTo_S65536_S_d0 : S65536.ReducesTo [0] S_

variable [Facts]

def fn_part3 {F : FTy → Type} [FloatOps F] (main_v47 : IVec S_ 1) (main_v49 : IVec S65536 1) (main_c_19 : IVec S_ 1) : IVec S_ 1 :=
  let main_v50 : IVec S_ 1 := (fun x v => Host.reduce IntOp.andi x v reducesTo_S65536_S_d0 h_S_) main_v49 main_c_19
  let main_v51 : IVec S_ 1 := andi main_v47 main_v50
  main_v51

def fn_part2 {F : FTy → Type} [FloatOps F] (main_arg1 : IVec S65536 32) (main_arg8 : FVec F S8x32 .f32) (main_arg9 : FVec F S8 .f32) (main_v33 : IVec S_ 1) : IVec S_ 1 :=
  let main_v34 : FVec F S8x32 .f32 := Host.absf main_arg8
  let main_cst_12 : FVec F S_ .f32 := constant S_ .f32 0x7F800000#32
  let main_v35 : FVec F S8x32 .f32 := broadcastInDim S8x32 ![] bcast_S_S8x32 main_cst_12
  let main_v36 : IVec S8x32 1 := cmpf .olt main_v34 main_v35
  let main_c_13 : IVec S_ 1 := constantI S_ 1 1#1
  let main_v37 : IVec S_ 1 := (fun x v => Host.reduce IntOp.andi x v reducesTo_S8x32_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S65536 32 := broadcastInDim S65536 ![] bcast_S_S65536 main_c_16
  let main_v45 : IVec S65536 1 := cmpi .sge main_arg1 main_v44
  let main_c_17 : IVec S_ 1 := constantI S_ 1 1#1
  let main_v46 : IVec S_ 1 := (fun x v => Host.reduce IntOp.andi x v reducesTo_S65536_S_d0 h_S_) main_v45 main_c_17
  let main_v47 : IVec S_ 1 := andi main_v43 main_v46
  let main_c_18 : IVec S_ 32 := constantI S_ 32 8#32
  let main_v48 : IVec S65536 32 := broadcastInDim S65536 ![] bcast_S_S65536 main_c_18
  let main_v49 : IVec S65536 1 := cmpi .slt main_arg1 main_v48
  let main_c_19 : IVec S_ 1 := constantI S_ 1 1#1
  fn_part3 (F := F) main_v47 main_v49 main_c_19

def fn_part1 {F : FTy → Type} [FloatOps F] (main_arg1 : IVec S65536 32) (main_arg5 : FVec F S16 .f32) (main_arg6 : FVec F S256x30 .f32) (main_arg7 : FVec F S256 .f32) (main_arg8 : FVec F S8x32 .f32) (main_arg9 : FVec F S8 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S256x30 .f32 := Host.absf main_arg6
  let main_cst_8 : FVec F S_ .f32 := constant S_ .f32 0x7F800000#32
  let main_v25 : FVec F S256x30 .f32 := broadcastInDim S256x30 ![] bcast_S_S256x30 main_cst_8
  let main_v26 : IVec S256x30 1 := cmpf .olt main_v24 main_v25
  let main_c_9 : IVec S_ 1 := constantI S_ 1 1#1
  let main_v27 : IVec S_ 1 := (fun x v => Host.reduce IntOp.andi x v reducesTo_S256x30_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S65536x1024 .f32) (main_arg1 : IVec S65536 32) (main_arg2 : FVec F S128x1024 .f32) (main_arg3 : FVec F S128 .f32) (main_arg4 : FVec F S16x1024 .f32) (main_arg5 : FVec F S16 .f32) (main_arg6 : FVec F S256x30 .f32) (main_arg7 : FVec F S256 .f32) (main_arg8 : FVec F S8x32 .f32) (main_arg9 : FVec F S8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x1024 .f32 := Host.absf main_arg4
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg1 main_arg5 main_arg6 main_arg7 main_arg8 main_arg9 main_v13 main_v16
-- ==== Kernel.lean ====
abbrev S65536x1024 : Shape := ⟨2, ![65536, 1024]⟩
abbrev S65536 : Shape := ⟨1, ![65536]⟩
abbrev S128x1024 : Shape := ⟨2, ![128, 1024]⟩
abbrev S128 : Shape := ⟨1, ![128]⟩
abbrev S16x1024 : Shape := ⟨2, ![16, 1024]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S65536x1 : Shape := ⟨2, ![65536, 1]⟩
abbrev S144x1024 : Shape := ⟨2, ![144, 1024]⟩
abbrev S144 : Shape := ⟨1, ![144]⟩
abbrev S1x144 : Shape := ⟨2, ![1, 144]⟩
abbrev S1024x144 : Shape := ⟨2, ![1024, 144]⟩
abbrev S30x256 : Shape := ⟨2, ![30, 256]⟩
abbrev S1x256 : Shape := ⟨2, ![1, 256]⟩
abbrev S1x8 : Shape := ⟨2, ![1, 8]⟩
abbrev S2048x1024 : Shape := ⟨2, ![2048, 1024]⟩
abbrev S2048x1 : Shape := ⟨2, ![2048, 1]⟩
abbrev S2048x144 : Shape := ⟨2, ![2048, 144]⟩
abbrev S2048x128 : Shape := ⟨2, ![2048, 128]⟩
abbrev S2048x16 : Shape := ⟨2, ![2048, 16]⟩
abbrev S2048x8 : Shape := ⟨2, ![2048, 8]⟩
abbrev S2048x15 : Shape := ⟨2, ![2048, 15]⟩
abbrev S2048x30 : Shape := ⟨2, ![2048, 30]⟩
abbrev S2048x256 : Shape := ⟨2, ![2048, 256]⟩
abbrev S2048x32 : Shape := ⟨2, ![2048, 32]⟩
abbrev S2048 : Shape := ⟨1, ![2048]⟩

abbrev nBuf : Space → Nat
  | .hbm => 19
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S128x1024, .f32⟩
  | .hbm, ⟨3, _⟩ => ⟨S128, .f32⟩
  | .hbm, ⟨4, _⟩ => ⟨S16x1024, .f32⟩
  | .hbm, ⟨5, _⟩ => ⟨S16, .f32⟩
  | .hbm, ⟨6, _⟩ => ⟨S256x30, .f32⟩
  | .hbm, ⟨7, _⟩ => ⟨S256, .f32⟩
  | .hbm, ⟨8, _⟩ => ⟨S8x32, .f32⟩
  | .hbm, ⟨9, _⟩ => ⟨S8, .f32⟩
  | .hbm, ⟨10, _⟩ => ⟨S65536x1, .i32⟩
  | .hbm, ⟨11, _⟩ => ⟨S144x1024, .f32⟩
  | .hbm, ⟨12, _⟩ => ⟨S144, .f32⟩
  | .hbm, ⟨13, _⟩ => ⟨S1x144, .f32⟩
  | .hbm, ⟨14, _⟩ => ⟨S1024x144, .f32⟩
  | .hbm, ⟨15, _⟩ => ⟨S30x256, .f32⟩
  | .hbm, ⟨16, _⟩ => ⟨S1x256, .f32⟩
  | .hbm, ⟨17, _⟩ => ⟨S1x8, .f32⟩
  | .hbm, ⟨18, _⟩ => ⟨S65536x1, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S1024x144, .f32⟩
  | .local _ .vmem, ⟨5, _⟩ => ⟨S1x144, .f32⟩
  | .local _ .vmem, ⟨6, _⟩ => ⟨S30x256, .f32⟩
  | .local _ .vmem, ⟨7, _⟩ => ⟨S1x256, .f32⟩
  | .local _ .vmem, ⟨8, _⟩ => ⟨S8x32, .f32⟩
  | .local _ .vmem, ⟨9, _⟩ => ⟨S1x8, .f32⟩
  | .local _ .vmem, ⟨10, _⟩ => ⟨S2048x1, .f32⟩
  | .local _ .vmem, ⟨11, _⟩ => ⟨S2048x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S65536_S65536x1 : S65536.ShapeCasts S65536x1
  concatenates_S128x1024_S16x1024_S144x1024_d0 : Shape.Concatenates [S128x1024, S16x1024] S144x1024 0
  concatenates_S128_S16_S144_d0 : Shape.Concatenates [S128, S16] S144 0
  shapeCasts_S144_S1x144 : S144.ShapeCasts S1x144
  transposes_S144x1024_S1024x144_1_0 : S144x1024.Transposes [1, 0] S1024x144
  transposes_S256x30_S30x256_1_0 : S256x30.Transposes [1, 0] S30x256
  shapeCasts_S256_S1x256 : S256.ShapeCasts S1x256
  shapeCasts_S8_S1x8 : S8.ShapeCasts S1x8
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x144_S1024x144_0_0 : ∀ a, (![0, 0] : Fin 2 → Nat) a + S1024x144.size a ≤ S1024x144.size a
  h_S1024x144 : 0 < S1024x144.numel
  shapeCasts_S1024x144_S1024x144 : S1024x144.ShapeCasts S1024x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S2048x144 : S1x144.Broadcasts S2048x144
  slices_S2048x144_o0_0_S2048x128 : S2048x144.Slices ![0, 0] S2048x128
  slices_S2048x144_o0_128_S2048x16 : S2048x144.Slices ![0, 128] S2048x16
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x8_d1_w32 : S1x8.Iotas .tc 32 [1]
  broadcasts_S2048x1_S2048x8 : S2048x1.Broadcasts S2048x8
  broadcasts_S1x8_S2048x8 : S1x8.Broadcasts S2048x8
  natLt_1_32 : 1 < 32
  slices_S2048x8_o0_0_S2048x1 : S2048x8.Slices ![0, 0] S2048x1
  slices_S2048x128_o0_0_S2048x16 : S2048x128.Slices ![0, 0] S2048x16
  broadcasts_S2048x1_S2048x16 : S2048x1.Broadcasts S2048x16
  slices_S2048x8_o0_1_S2048x1 : S2048x8.Slices ![0, 1] S2048x1
  slices_S2048x128_o0_16_S2048x16 : S2048x128.Slices ![0, 16] S2048x16
  slices_S2048x8_o0_2_S2048x1 : S2048x8.Slices ![0, 2] S2048x1
  slices_S2048x128_o0_32_S2048x16 : S2048x128.Slices ![0, 32] S2048x16
  slices_S2048x8_o0_3_S2048x1 : S2048x8.Slices ![0, 3] S2048x1
  slices_S2048x128_o0_48_S2048x16 : S2048x128.Slices ![0, 48] S2048x16
  slices_S2048x8_o0_4_S2048x1 : S2048x8.Slices ![0, 4] S2048x1
  slices_S2048x128_o0_64_S2048x16 : S2048x128.Slices ![0, 64] S2048x16
  slices_S2048x8_o0_5_S2048x1 : S2048x8.Slices ![0, 5] S2048x1
  slices_S2048x128_o0_80_S2048x16 : S2048x128.Slices ![0, 80] S2048x16
  slices_S2048x8_o0_6_S2048x1 : S2048x8.Slices ![0, 6] S2048x1
  slices_S2048x128_o0_96_S2048x16 : S2048x128.Slices ![0, 96] S2048x16
  slices_S2048x8_o0_7_S2048x1 : S2048x8.Slices ![0, 7] S2048x1
  slices_S2048x128_o0_112_S2048x16 : S2048x128.Slices ![0, 112] S2048x16
  slices_S2048x16_o0_0_S2048x15 : S2048x16.Slices ![0, 0] S2048x15
  slices_S2048x16_o0_15_S2048x1 : S2048x16.Slices ![0, 15] S2048x1
  concatenates_S2048x15_S2048x15_S2048x30_d1 : Shape.Concatenates [S2048x15, S2048x15] S2048x30 1
  inb_S30x256_S30x256_0_0 : ∀ a, (![0, 0] : Fin 2 → Nat) a + S30x256.size a ≤ S30x256.size a
  h_S30x256 : 0 < S30x256.numel
  shapeCasts_S30x256_S30x256 : S30x256.ShapeCasts S30x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x32 : S2048x256.Slices ![0, 0] S2048x32
  broadcasts_S2048x1_S2048x32 : S2048x1.Broadcasts S2048x32
  slices_S2048x256_o0_32_S2048x32 : S2048x256.Slices ![0, 32] S2048x32
  slices_S2048x256_o0_64_S2048x32 : S2048x256.Slices ![0, 64] S2048x32
  slices_S2048x256_o0_96_S2048x32 : S2048x256.Slices ![0, 96] S2048x32
  slices_S2048x256_o0_128_S2048x32 : S2048x256.Slices ![0, 128] S2048x32
  slices_S2048x256_o0_160_S2048x32 : S2048x256.Slices ![0, 160] S2048x32
  slices_S2048x256_o0_192_S2048x32 : S2048x256.Slices ![0, 192] S2048x32
  slices_S2048x256_o0_224_S2048x32 : S2048x256.Slices ![0, 224] S2048x32
  inb_S8x32_S8x32_0_0 : ∀ a, (![0, 0] : Fin 2 → Nat) a + S8x32.size a ≤ S8x32.size a
  h_S8x32 : 0 < S8x32.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  reduces_S2048x8_S2048 : S2048x8.Reduces [1] S2048
  shapeCasts_S2048_S2048x1 : S2048.ShapeCasts S2048x1
  reduces_S2048x32_S2048 : S2048x32.Reduces [1] S2048
  dot_S2048x1024_S1024x144_S2048x144_1_0_0_1_n_n_wf : DotDims.WF S2048x1024 S1024x144 S2048x144 [1] [0] [0] [1] [] []
  dot_S2048x30_S30x256_S2048x256_1_0_0_1_n_n_wf : DotDims.WF S2048x30 S30x256 S2048x256 [1] [0] [0] [1] [] []
  dot_S2048x8_S8x32_S2048x32_1_0_0_1_n_n_wf : DotDims.WF S2048x8 S8x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x144.size a ≤ S1024x144.size a
  hwx0_2 : ∀ i : grid0.Coords, EltTy.bits .f32 = 32 ∨ (Rect.block (s := S1024x144) S1024x144.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x144.size a ≤ S1x144.size a
  hwx0_3 : ∀ i : grid0.Coords, EltTy.bits .f32 = 32 ∨ (Rect.block (s := S1x144) S1x144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S30x256.size a ≤ S30x256.size a
  hwx0_4 : ∀ i : grid0.Coords, EltTy.bits .f32 = 32 ∨ (Rect.block (s := S30x256) S30x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x32.size a ≤ S8x32.size a
  hwx0_6 : ∀ i : grid0.Coords, EltTy.bits .f32 = 32 ∨ (Rect.block (s := S8x32) S8x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S65536x1.size a
  hwx0_8 : ∀ i : grid0.Coords, EltTy.bits .f32 = 32 ∨ (Rect.block (s := S65536x1) S2048x1.size (cc0_transform_8 i) (hinb0_8 i)).WholeWords (EltTy.packing .f32)

variable [Facts₀]

def dot_S2048x1024_S1024x144_S2048x144_1_0_0_1_n_n : DotDims S2048x1024 S1024x144 S2048x144 where
  lhsContracting := [1]
  rhsContracting := [0]
  lhsNonContracting := [0]
  rhsNonContracting := [1]
  lhsBatch := []
  rhsBatch := []
  wf := dot_S2048x1024_S1024x144_S2048x144_1_0_0_1_n_n_wf
def dot_S2048x30_S30x256_S2048x256_1_0_0_1_n_n : DotDims S2048x30 S30x256 S2048x256 where
  lhsContracting := [1]
  rhsContracting := [0]
  lhsNonContracting := [0]
  rhsNonContracting := [1]
  lhsBatch := []
  rhsBatch := []
  wf := dot_S2048x30_S30x256_S2048x256_1_0_0_1_n_n_wf
def dot_S2048x8_S8x32_S2048x32_1_0_0_1_n_n : DotDims S2048x8 S8x32 S2048x32 where
  lhsContracting := [1]
  rhsContracting := [0]
  lhsNonContracting := [0]
  rhsNonContracting := [1]
  lhsBatch := []
  rhsBatch := []
  wf := dot_S2048x8_S8x32_S2048x32_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S30x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S8x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S128x1024 : Shape := ⟨2, ![128, 1024]⟩
abbrev S128 : Shape := ⟨1, ![128]⟩
abbrev S16x1024 : Shape := ⟨2, ![16, 1024]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S1024x128 : Shape := ⟨2, ![1024, 128]⟩
abbrev S65536x128 : Shape := ⟨2, ![65536, 128]⟩
abbrev S1x128 : Shape := ⟨2, ![1, 128]⟩
abbrev S65536x8x16 : Shape := ⟨3, ![65536, 8, 16]⟩
abbrev S1024x16 : Shape := ⟨2, ![1024, 16]⟩
abbrev S65536x16 : Shape := ⟨2, ![65536, 16]⟩
abbrev S1x16 : Shape := ⟨2, ![1, 16]⟩
abbrev S_ : Shape := ⟨0, ![]⟩
abbrev S65536x1 : Shape := ⟨2, ![65536, 1]⟩
abbrev S65536x2 : Shape := ⟨2, ![65536, 2]⟩
abbrev S65536x15 : Shape := ⟨2, ![65536, 15]⟩
abbrev S65536x30 : Shape := ⟨2, ![65536, 30]⟩
abbrev S30x256 : Shape := ⟨2, ![30, 256]⟩
abbrev S65536x256 : Shape := ⟨2, ![65536, 256]⟩
abbrev S1x256 : Shape := ⟨2, ![1, 256]⟩
abbrev S65536x8x32 : Shape := ⟨3, ![65536, 8, 32]⟩
abbrev S65536x32 : Shape := ⟨2, ![65536, 32]⟩
abbrev S32x8 : Shape := ⟨2, ![32, 8]⟩
abbrev S65536x8 : Shape := ⟨2, ![65536, 8]⟩
abbrev S1x8 : Shape := ⟨2, ![1, 8]⟩
abbrev S65536x8x1 : Shape := ⟨3, ![65536, 8, 1]⟩

abbrev nBuf : Space → Nat
  | .hbm => 116
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S128x1024, .f32⟩
  | .hbm, ⟨3, _⟩ => ⟨S128, .f32⟩
  | .hbm, ⟨4, _⟩ => ⟨S16x1024, .f32⟩
  | .hbm, ⟨5, _⟩ => ⟨S16, .f32⟩
  | .hbm, ⟨6, _⟩ => ⟨S256x30, .f32⟩
  | .hbm, ⟨7, _⟩ => ⟨S256, .f32⟩
  | .hbm, ⟨8, _⟩ => ⟨S8x32, .f32⟩
  | .hbm, ⟨9, _⟩ => ⟨S8, .f32⟩
  | .hbm, ⟨10, _⟩ => ⟨S65536, .i32⟩
  | .hbm, ⟨11, _⟩ => ⟨S1024x128, .f32⟩
  | .hbm, ⟨12, _⟩ => ⟨S65536x128, .f32⟩
  | .hbm, ⟨13, _⟩ => ⟨S1x128, .f32⟩
  | .hbm, ⟨14, _⟩ => ⟨S65536x128, .f32⟩
  | .hbm, ⟨15, _⟩ => ⟨S65536x128, .f32⟩
  | .hbm, ⟨16, _⟩ => ⟨S65536x8x16, .f32⟩
  | .hbm, ⟨17, _⟩ => ⟨S1024x16, .f32⟩
  | .hbm, ⟨18, _⟩ => ⟨S65536x16, .f32⟩
  | .hbm, ⟨19, _⟩ => ⟨S1x16, .f32⟩
  | .hbm, ⟨20, _⟩ => ⟨S65536x16, .f32⟩
  | .hbm, ⟨21, _⟩ => ⟨S65536x16, .f32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S_, .i32⟩
  | .hbm, ⟨30, _⟩ => ⟨S65536, .i32⟩
  | .hbm, ⟨31, _⟩ => ⟨S65536, .i1⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S65536, .i32⟩
  | .hbm, ⟨36, _⟩ => ⟨S65536x1, .i32⟩
  | .hbm, ⟨37, _⟩ => ⟨S65536x1, .i32⟩
  | .hbm, ⟨38, _⟩ => ⟨S65536x2, .i32⟩
  | .hbm, ⟨39, _⟩ => ⟨S65536x16, .f32⟩
  | .hbm, ⟨40, _⟩ => ⟨S65536x15, .f32⟩
  | .hbm, ⟨41, _⟩ => ⟨S65536x1, .f32⟩
  | .hbm, ⟨42, _⟩ => ⟨S65536x15, .f32⟩
  | .hbm, ⟨43, _⟩ => ⟨S65536x1, .f32⟩
  | .hbm, ⟨44, _⟩ => ⟨S65536x15, .f32⟩
  | .hbm, ⟨45, _⟩ => ⟨S65536x15, .f32⟩
  | .hbm, ⟨46, _⟩ => ⟨S_, .f32⟩
  | .hbm, ⟨47, _⟩ => ⟨S65536x15, .f32⟩
  | .hbm, ⟨48, _⟩ => ⟨S65536x15, .f32⟩
  | .hbm, ⟨49, _⟩ => ⟨S65536x30, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S65536x30, .f32⟩
  | .hbm, ⟨54, _⟩ => ⟨S65536x30, .f32⟩
  | .hbm, ⟨55, _⟩ => ⟨S_, .f32⟩
  | .hbm, ⟨56, _⟩ => ⟨S65536x30, .f32⟩
  | .hbm, ⟨57, _⟩ => ⟨S65536x30, .f32⟩
  | .hbm, ⟨58, _⟩ => ⟨S30x256, .f32⟩
  | .hbm, ⟨59, _⟩ => ⟨S65536x256, .f32⟩
  | .hbm, ⟨60, _⟩ => ⟨S1x256, .f32⟩
  | .hbm, ⟨61, _⟩ => ⟨S65536x256, .f32⟩
  | .hbm, ⟨62, _⟩ => ⟨S65536x256, .f32⟩
  | .hbm, ⟨63, _⟩ => ⟨S65536x8x32, .f32⟩
  | .hbm, ⟨64, _⟩ => ⟨S_, .i32⟩
  | .hbm, ⟨65, _⟩ => ⟨S65536, .i32⟩
  | .hbm, ⟨66, _⟩ => ⟨S65536, .i1⟩
  | .hbm, ⟨67, _⟩ => ⟨S_, .i32⟩
  | .hbm, ⟨68, _⟩ => ⟨S65536, .i32⟩
  | .hbm, ⟨69, _⟩ => ⟨S65536, .i32⟩
  | .hbm, ⟨70, _⟩ => ⟨S65536, .i32⟩
  | .hbm, ⟨71, _⟩ => ⟨S_, .i32⟩
  | .hbm, ⟨72, _⟩ => ⟨S65536, .i32⟩
  | .hbm, ⟨73, _⟩ => ⟨S65536, .i1⟩
  | .hbm, ⟨74, _⟩ => ⟨S_, .i32⟩
  | .hbm, ⟨75, _⟩ => ⟨S65536, .i32⟩
  | .hbm, ⟨76, _⟩ => ⟨S65536, .i32⟩
  | .hbm, ⟨77, _⟩ => ⟨S65536, .i32⟩
  | .hbm, ⟨78, _⟩ => ⟨S65536x1, .i32⟩
  | .hbm, ⟨79, _⟩ => ⟨S65536x1, .i32⟩
  | .hbm, ⟨80, _⟩ => ⟨S65536x2, .i32⟩
  | .hbm, ⟨81, _⟩ => ⟨S65536x32, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S65536x32, .f32⟩
  | .hbm, ⟨86, _⟩ => ⟨S65536x32, .f32⟩
  | .hbm, ⟨87, _⟩ => ⟨S_, .f32⟩
  | .hbm, ⟨88, _⟩ => ⟨S65536x32, .f32⟩
  | .hbm, ⟨89, _⟩ => ⟨S65536x32, .f32⟩
  | .hbm, ⟨90, _⟩ => ⟨S32x8, .f32⟩
  | .hbm, ⟨91, _⟩ => ⟨S65536x8, .f32⟩
  | .hbm, ⟨92, _⟩ => ⟨S1x8, .f32⟩
  | .hbm, ⟨93, _⟩ => ⟨S65536x8, .f32⟩
  | .hbm, ⟨94, _⟩ => ⟨S65536x8, .f32⟩
  | .hbm, ⟨95, _⟩ => ⟨S65536x8x1, .f32⟩
  | .hbm, ⟨96, _⟩ => ⟨S_, .i32⟩
  | .hbm, ⟨97, _⟩ => ⟨S65536, .i32⟩
  | .hbm, ⟨98, _⟩ => ⟨S65536, .i1⟩
  | .hbm, ⟨99, _⟩ => ⟨S_, .i32⟩
  | .hbm, ⟨100, _⟩ => ⟨S65536, .i32⟩
  | .hbm, ⟨101, _⟩ => ⟨S65536, .i32⟩
  | .hbm, ⟨102, _⟩ => ⟨S65536, .i32⟩
  | .hbm, ⟨103, _⟩ => ⟨S_, .i32⟩
  | .hbm, ⟨104, _⟩ => ⟨S65536, .i32⟩
  | .hbm, ⟨105, _⟩ => ⟨S65536, .i1⟩
  | .hbm, ⟨106, _⟩ => ⟨S_, .i32⟩
  | .hbm, ⟨107, _⟩ => ⟨S65536, .i32⟩
  | .hbm, ⟨108, _⟩ => ⟨S65536, .i32⟩
  | .hbm, ⟨109, _⟩ => ⟨S65536, .i32⟩
  | .hbm, ⟨110, _⟩ => ⟨S65536x1, .i32⟩
  | .hbm, ⟨111, _⟩ => ⟨S65536x1, .i32⟩
  | .hbm, ⟨112, _⟩ => ⟨S65536x2, .i32⟩
  | .hbm, ⟨113, _⟩ => ⟨S65536x1, .f32⟩
  | .hbm, ⟨114, _⟩ => ⟨S65536x1, .f32⟩
  | .hbm, ⟨115, _⟩ => ⟨S65536x1, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_cst_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S65536x8x16 : S65536x128.ShapeCasts S65536x8x16
  transposes_S16x1024_S1024x16_1_0 : S16x1024.Transposes [1, 0] S1024x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  slices_S65536x16_S65536x15_0_0 : S65536x16.Slices ![0, 0] S65536x15
  slices_S65536x16_S65536x1_0_15 : S65536x16.Slices ![0, 15] S65536x1
  bcast_S_S65536x15 : S_.BroadcastsInDim S65536x15 (![] : Fin 0 → Fin S65536x15.rank)
  concatenates_S65536x15_S65536x15_S65536x30_d1 : Shape.Concatenates [S65536x15, S65536x15] S65536x30 1
  bcast_S_S65536x30 : S_.BroadcastsInDim S65536x30 (![] : Fin 0 → Fin S65536x30.rank)
  transposes_S256x30_S30x256_1_0 : S256x30.Transposes [1, 0] S30x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x8x32 : S65536x256.ShapeCasts S65536x8x32
  bcast_S_S65536x32 : S_.BroadcastsInDim S65536x32 (![] : Fin 0 → Fin S65536x32.rank)
  transposes_S8x32_S32x8_1_0 : S8x32.Transposes [1, 0] S32x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  shapeCasts_S65536x8_S65536x8x1 : S65536x8.ShapeCasts S65536x8x1
  dot_S65536x1024_S1024x128_S65536x128_1_0_0_1_n_n_wf : DotDims.WF S65536x1024 S1024x128 S65536x128 [1] [0] [0] [1] [] []
  dot_S65536x1024_S1024x16_S65536x16_1_0_0_1_n_n_wf : DotDims.WF S65536x1024 S1024x16 S65536x16 [1] [0] [0] [1] [] []
  gather_S65536x8x16_S65536x2_S65536x16_1_01_n_n_01_1_1116_wf : GatherDims.WF S65536x8x16 S65536x2 S65536x16 [1] [0, 1] [] [0, 1] [] 1 ![1, 1, 16]
  dot_S65536x30_S30x256_S65536x256_1_0_0_1_n_n_wf : DotDims.WF S65536x30 S30x256 S65536x256 [1] [0] [0] [1] [] []
  gather_S65536x8x32_S65536x2_S65536x32_1_01_n_n_01_1_1132_wf : GatherDims.WF S65536x8x32 S65536x2 S65536x32 [1] [0, 1] [] [0, 1] [] 1 ![1, 1, 32]
  dot_S65536x32_S32x8_S65536x8_1_0_0_1_n_n_wf : DotDims.WF S65536x32 S32x8 S65536x8 [1] [0] [0] [1] [] []
  gather_S65536x8x1_S65536x2_S65536x1_1_01_n_n_01_1_111_wf : GatherDims.WF S65536x8x1 S65536x2 S65536x1 [1] [0, 1] [] [0, 1] [] 1 ![1, 1, 1]

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def dot_S65536x1024_S1024x16_S65536x16_1_0_0_1_n_n : DotDims S65536x1024 S1024x16 S65536x16 where
  lhsContracting := [1]
  rhsContracting := [0]
  lhsNonContracting := [0]
  rhsNonContracting := [1]
  lhsBatch := []
  rhsBatch := []
  wf := dot_S65536x1024_S1024x16_S65536x16_1_0_0_1_n_n_wf
def gather_S65536x8x16_S65536x2_S65536x16_1_01_n_n_01_1_1116 : GatherDims S65536x8x16 S65536x2 S65536x16 where
  offsetDims := [1]
  collapsedSliceDims := [0, 1]
  operandBatchingDims := []
  startIndicesBatchingDims := []
  startIndexMap := [0, 1]
  indexVectorDim := 1
  sliceSizes := ![1, 1, 16]
  wf := gather_S65536x8x16_S65536x2_S65536x16_1_01_n_n_01_1_1116_wf
def dot_S65536x30_S30x256_S65536x256_1_0_0_1_n_n : DotDims S65536x30 S30x256 S65536x256 where
  lhsContracting := [1]
  rhsContracting := [0]
  lhsNonContracting := [0]
  rhsNonContracting := [1]
  lhsBatch := []
  rhsBatch := []
  wf := dot_S65536x30_S30x256_S65536x256_1_0_0_1_n_n_wf
def gather_S65536x8x32_S65536x2_S65536x32_1_01_n_n_01_1_1132 : GatherDims S65536x8x32 S65536x2 S65536x32 where
  offsetDims := [1]
  collapsedSliceDims := [0, 1]
  operandBatchingDims := []
  startIndicesBatchingDims := []
  startIndexMap := [0, 1]
  indexVectorDim := 1
  sliceSizes := ![1, 1, 32]
  wf := gather_S65536x8x32_S65536x2_S65536x32_1_01_n_n_01_1_1132_wf
def dot_S65536x32_S32x8_S65536x8_1_0_0_1_n_n : DotDims S65536x32 S32x8 S65536x8 where
  lhsContracting := [1]
  rhsContracting := [0]
  lhsNonContracting := [0]
  rhsNonContracting := [1]
  lhsBatch := []
  rhsBatch := []
  wf := dot_S65536x32_S32x8_S65536x8_1_0_0_1_n_n_wf
def gather_S65536x8x1_S65536x2_S65536x1_1_01_n_n_01_1_111 : GatherDims S65536x8x1 S65536x2 S65536x1 where
  offsetDims := [1]
  collapsedSliceDims := [0, 1]
  operandBatchingDims := []
  startIndicesBatchingDims := []
  startIndexMap := [0, 1]
  indexVectorDim := 1
  sliceSizes := ![1, 1, 1]
  wf := gather_S65536x8x1_S65536x2_S65536x1_1_01_n_n_01_1_111_wf

class Facts : Prop extends Facts₀ where

variable [Facts]
-- ==== Proof.SelectorRange.lean ====
/-
  What the precondition says of the selectors: every entry of the selector vector, read as a signed integer, lies in
  `[0, 8)`. The printed predicate is a chain of conjunctions; its last two conjuncts are "every entry is at least 0"
  and "every entry is below 8", each a reduction by `and` of a signed comparison against a constant vector.
-/
import proofs.«404139_j62483184222247_2_alg».proof.Pre_finite_inputs
import Idealize.ShloMosaic.Lib.ReduceAll
import Idealize.ShloMosaic.Lib.ValueIdx

noncomputable section

namespace Cert.Stacked

open Idealize.ShloMosaic Idealize.ShloMosaic.ValueIdx Cert.Pre_finite_inputs

instance subsingleton_scalar_idx : Subsingleton S_.Idx := ⟨fun a b => funext fun d => d.elim0⟩

/-- Under the precondition every selector is in `[0, 8)` as a signed integer. -/
theorem selector_range [Facts] {F : FTy → Type} [FloatOps F]
    (a0 : FVec F S65536x1024 .f32) (a1 : IVec S65536 32) (a2 : FVec F S128x1024 .f32) (a3 : FVec F S128 .f32)
    (a4 : FVec F S16x1024 .f32) (a5 : FVec F S16 .f32) (a6 : FVec F S256x30 .f32) (a7 : FVec F S256 .f32)
    (a8 : FVec F S8x32 .f32) (a9 : FVec F S8 .f32)
    (h : fn (F := F) a0 a1 a2 a3 a4 a5 a6 a7 a8 a9 = fun _ => 1#1) (i : S65536.Idx) :
    0 ≤ (a1 i).toInt ∧ (a1 i).toInt < 8 := by
  have h0 := congrFun h ix0
  dsimp only [fn, fn_part1, fn_part2, fn_part3] at h0
  obtain ⟨h47, h50⟩ := IntOp.andi_eq_one.1 h0
  obtain ⟨_, h46⟩ := IntOp.andi_eq_one.1 h47
  have hge := Host.reduce_andi_all _ _ _ _ _ h46 i
  have hlt := Host.reduce_andi_all _ _ _ _ _ h50 i
  have hge' := IntOp.cmpi_sge.1 hge
  have hlt' := IntOp.cmpi_slt.1 hlt
  refine ⟨?_, ?_⟩
  · have e : (broadcastInDim S65536 ![] Facts.bcast_S_S65536 (constantI S_ 32 0#32) i).toInt = 0 := rfl
    rw [e] at hge'; exact hge'
  · have e : (broadcastInDim S65536 ![] Facts.bcast_S_S65536 (constantI S_ 32 8#32) i).toInt = 8 := rfl
    rw [e] at hlt'; exact hlt'

end Cert.Stacked

end
-- ==== Proof.RowSpec.lean ====
/-
  One batch row of the network, as a function of that row's data and of the parameter tables, on the extended reals.

  A row carries a vector `x` of 1024 features and a selector `e` in `[0, 8)`. The first layer is ONE affine map into
  144 outputs: eight stacks of 16 outputs each (outputs `16 c + q`) followed by 16 shared outputs (outputs `128 + q`).
  The row keeps the stack its selector names and adds the shared outputs to its first 15; the 15 sums, squared and
  scaled, and the 15 sums themselves, all clamped to `[0, 1]`, are the 30 inputs of the second layer: one affine map
  into eight stacks of 32 outputs, of which the row again keeps the stack `e`, clamped to `[0, 1]`. The last layer is
  the inner product of those 32 numbers with row `e` of an `8 × 32` table, plus entry `e` of a bias vector; the row's
  result is that number plus the 16th shared output plus the 16th output of the kept first-layer stack.

  Also here: a sum of eight terms weighted by the indicator of the selector is the selected term, whatever the terms
  are (on the extended reals `0 * v = 0` and `1 * v = v` for every `v`, the infinities included, so no finiteness
  is needed).
-/
import Idealize.ShloMosaic.PureOps.Ideal
import Idealize.ShloMosaic.PureOps.Ideal.Laws

noncomputable section

open scoped BigOperators

namespace Cert.Stacked

open Idealize.ShloMosaic

/-- The lower clamp bound, the upper clamp bound and the scale of the squares, as the extended reals their f32 words
    denote (0, 1 and 127/128; only the zero word is ever evaluated). -/
abbrev lo : EReal := Ideal.ofBits .f32 0x00000000#32
abbrev hi : EReal := Ideal.ofBits .f32 0x3F800000#32
abbrev shrink : EReal := Ideal.ofBits .f32 0x3F7E0000#32

/-- Clamping to `[lo, hi]`: first from below, then from above. -/
def clamp (v : EReal) : EReal := min hi (max lo v)

section Row
variable (x : Fin 1024 → EReal) (e : Fin 8)
  (w1 : Fin 144 → Fin 1024 → EReal) (b1 : Fin 144 → EReal)
  (w2 : Fin 256 → Fin 30 → EReal) (b2 : Fin 256 → EReal)
  (ow : Fin 8 → Fin 32 → EReal) (ob : Fin 8 → EReal)

/-- Output `j` of the first layer's affine map. -/
def dense1 (j : Fin 144) : EReal := (∑ k : Fin 1024, x k * w1 j k) + b1 j

/-- Output `q` of the first-layer stack the selector names. -/
def picked1 (q : Fin 16) : EReal := dense1 x w1 b1 ⟨16 * e.val + q.val, by omega⟩

/-- Shared output `q` of the first layer. -/
def shared1 (q : Fin 16) : EReal := dense1 x w1 b1 ⟨128 + q.val, by omega⟩

/-- The kept stack plus the shared outputs, on the first 15 outputs. -/
def hidden (q : Fin 15) : EReal := picked1 x e w1 b1 ⟨q.val, by omega⟩ + shared1 x w1 b1 ⟨q.val, by omega⟩

/-- The second layer's 30 inputs: the scaled squares, then the sums, clamped. -/
def feat (r : Fin 30) : EReal :=
  clamp (if h : r.val < 15 then hidden x e w1 b1 ⟨r.val, h⟩ * hidden x e w1 b1 ⟨r.val, h⟩ * shrink
    else hidden x e w1 b1 ⟨r.val - 15, by omega⟩)

/-- Output `j` of the second layer's affine map. -/
def dense2 (j : Fin 256) : EReal := (∑ r : Fin 30, feat x e w1 b1 r * w2 j r) + b2 j

/-- Output `s` of the second-layer stack the selector names, clamped. -/
def picked2 (s : Fin 32) : EReal := clamp (dense2 x e w1 b1 w2 b2 ⟨32 * e.val + s.val, by omega⟩)

/-- The row's result. -/
def rowOut : EReal :=
  ((∑ s : Fin 32, picked2 x e w1 b1 w2 b2 s * ow e s) + ob e) + shared1 x w1 b1 ⟨15, by omega⟩
    + picked1 x e w1 b1 ⟨15, by omega⟩

end Row

/-! ## The first layer's table in two parts -/

/-- A 144-entry family made of a 128-entry part followed by a 16-entry part. -/
def fuse {α : Type} (a : Fin 128 → α) (b : Fin 16 → α) (j : Fin 144) : α :=
  if h : j.val < 128 then a ⟨j.val, h⟩ else b ⟨j.val - 128, by omega⟩

theorem fuse_left {α : Type} (a : Fin 128 → α) (b : Fin 16 → α) (j : Fin 144) (h : j.val < 128) :
    fuse a b j = a ⟨j.val, h⟩ := dif_pos h

theorem fuse_right {α : Type} (a : Fin 128 → α) (b : Fin 16 → α) (j : Fin 144) (h : 128 ≤ j.val) :
    fuse a b j = b ⟨j.val - 128, by omega⟩ := dif_neg (by omega)

/-- With the table in two parts, the kept stack's output `q` reads the first part only. -/
theorem picked1_fuse (x : Fin 1024 → EReal) (e : Fin 8) (A : Fin 128 → Fin 1024 → EReal) (B : Fin 16 → Fin 1024 → EReal)
    (a : Fin 128 → EReal) (b : Fin 16 → EReal) (q : Fin 16) :
    picked1 x e (fuse A B) (fuse a b) q
      = (∑ k : Fin 1024, x k * A ⟨16 * e.val + q.val, by omega⟩ k) + a ⟨16 * e.val + q.val, by omega⟩ := by
  unfold picked1 dense1
  rw [fuse_left A B _ (by show 16 * e.val + q.val < 128; omega), fuse_left a b _ (by show 16 * e.val + q.val < 128; omega)]

/-- With the table in two parts, shared output `q` reads the second part only. -/
theorem shared1_fuse (x : Fin 1024 → EReal) (A : Fin 128 → Fin 1024 → EReal) (B : Fin 16 → Fin 1024 → EReal)
    (a : Fin 128 → EReal) (b : Fin 16 → EReal) (q : Fin 16) :
    shared1 x (fuse A B) (fuse a b) q = (∑ k : Fin 1024, x k * B q k) + b q := by
  unfold shared1 dense1
  rw [fuse_right A B _ (by show 128 ≤ 128 + q.val; omega), fuse_right a b _ (by show 128 ≤ 128 + q.val; omega)]
  have hq : (⟨128 + q.val - 128, by omega⟩ : Fin 16) = q := Fin.ext (by show 128 + q.val - 128 = q.val; omega)
  simp only [hq]

/-! ## Selecting by an indicator -/

/-- The indicator of `c = e` as an extended real. -/
def hot (e c : Fin 8) : EReal := if c = e then 1 else 0

/-- Eight terms weighted by the selector's indicator, added one after the other onto zero, are the selected term. -/
theorem pick8 (e : Fin 8) (f : Fin 8 → EReal) :
    lo + hot e 0 * f 0 + hot e 1 * f 1 + hot e 2 * f 2 + hot e 3 * f 3 + hot e 4 * f 4 + hot e 5 * f 5
      + hot e 6 * f 6 + hot e 7 * f 7 = f e := by
  have hz : lo = 0 := Ideal.ofBits_zero_f32
  rw [hz]
  fin_cases e <;> simp [hot]

/-- The same as a sum over the eight indices. -/
theorem sum_hot (e : Fin 8) (f : Fin 8 → EReal) : ∑ c : Fin 8, hot e c * f c = f e := by
  rw [Finset.sum_eq_single e]
  · simp [hot]
  · intro c _ hc; simp [hot, hc]
  · intro h; exact absurd (Finset.mem_univ e) h

end Cert.Stacked

end
-- ==== Proof.Staged.lean ====
/-
  What the region finds in the arrays the host operations before it wrote, read at an index, in terms of the argument
  arrays: the selector vector as a column; the two first-layer tables stacked (144 rows) and transposed; the two
  first-layer biases joined and laid as one row; the second-layer table transposed and its bias as one row; the last
  layer's bias as one row. Then the result array the certificate claims: row `R` of the `[65536, 1]` column holds the
  row specification at batch row `R`'s features and selector and the argument tables.
-/
import proofs.«404139_j62483184222247_2_alg».proof.Proof.Gen.KernelIdeal.Frame
import proofs.«404139_j62483184222247_2_alg».proof.Proof.RowSpec
import Idealize.ShloMosaic.Lib.ValueIdx
import Idealize.ShloMosaic.Lib.ValueLayout
import Idealize.ShloMosaic.Lib.Pipeline.Value
import Idealize.ShloMosaic.Lib.StableHlo.Run

noncomputable section

namespace Cert.Stacked.Staged

open Cert.KernelIdeal Cert.KernelIdeal.Gen Cert.Stacked Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The argument arrays under their literal types. -/
abbrev feats (c : Dev nD) : S65536x1024.Idx → EReal := m ((c : Thread nD τ).loc main_arg0)
abbrev sels (c : Dev nD) : S65536.Idx → BitVec 32 := m ((c : Thread nD τ).loc main_arg1)
abbrev w1a (c : Dev nD) : S128x1024.Idx → EReal := m ((c : Thread nD τ).loc main_arg2)
abbrev b1a (c : Dev nD) : S128.Idx → EReal := m ((c : Thread nD τ).loc main_arg3)
abbrev w1b (c : Dev nD) : S16x1024.Idx → EReal := m ((c : Thread nD τ).loc main_arg4)
abbrev b1b (c : Dev nD) : S16.Idx → EReal := m ((c : Thread nD τ).loc main_arg5)
abbrev w2 (c : Dev nD) : S256x30.Idx → EReal := m ((c : Thread nD τ).loc main_arg6)
abbrev b2 (c : Dev nD) : S256.Idx → EReal := m ((c : Thread nD τ).loc main_arg7)
abbrev w3 (c : Dev nD) : S8x32.Idx → EReal := m ((c : Thread nD τ).loc main_arg8)
abbrev b3 (c : Dev nD) : S8.Idx → EReal := m ((c : Thread nD τ).loc main_arg9)

/-- The selector column the region streams is the selector vector, one entry per row. -/
theorem selectors (c : Dev nD) (r : Fin 65536) :
    (V m c main_v0 : S65536x1.Idx → BitVec 32) (ix2 r (0 : Fin 1)) = sels m c (ix1 r) := by
  have e : (V m c main_v0 : S65536x1.Idx → BitVec 32) = shapeCast S65536x1 (sels m c) shapeCasts_S65536_S65536x1 := by
    dsimp only [Gen.V, Gen.hostOps0]; after_results; rfl
  rw [e]
  refine shapeCast_apply (s := S65536) (t := S65536x1) (sels m c) _ (ix2 r (0 : Fin 1)) (ix1 r) ?_
  rw [Shape.rowMajor_val_two, Shape.rowMajor_val_one]
  show r.val = r.val * 1 + 0
  omega

/-- The first-layer table the region keeps resident: at `(k, j)` the stacked table's row `j`, column `k`. -/
theorem table1 (c : Dev nD) (k : Fin 1024) (j : Fin 144) :
    (V m c main_v4 : S1024x144.Idx → EReal) (ix2 k j)
      = fuse (fun j k => w1a m c (ix2 j k)) (fun j k => w1b m c (ix2 j k)) j k := by
  have e : (V m c main_v4 : S1024x144.Idx → EReal)
      = transpose S1024x144 [1, 0]
          (concatenate S144x1024 0 [⟨S128x1024, w1a m c⟩, ⟨S16x1024, w1b m c⟩] concatenates_S128x1024_S16x1024_S144x1024_d0)
          transposes_S144x1024_S1024x144_1_0 := by
    dsimp only [Gen.V, Gen.hostOps0]; after_results
  rw [e, transpose_ix2_apply]
  by_cases h : j.val < 128
  · rw [fuse_left _ _ j h]
    refine concatenate_pair_apply_left (t := S144x1024) (s₁ := S128x1024) (s₂ := S16x1024) 0 _ _ _ (ix2 j k) rfl
      (ix2 (⟨j.val, h⟩ : Fin 128) k) (fun b => ?_)
    match b with
    | ⟨0, _⟩ => rfl
    | ⟨1, _⟩ => rfl
  · rw [fuse_right _ _ j (by omega)]
    refine concatenate_pair_apply_right (t := S144x1024) (s₁ := S128x1024) (s₂ := S16x1024) 0 _ _ _ (ix2 j k) rfl rfl
      (ix2 (⟨j.val - 128, by omega⟩ : Fin 16) k) (fun b hb => ?_) ?_
    · match b with
      | ⟨0, _⟩ => exact absurd rfl hb
      | ⟨1, _⟩ => rfl
    · show j.val - 128 + 128 = j.val
      omega

/-- The first-layer bias row the region keeps resident: at `(0, j)` the joined bias at `j`. -/
theorem bias1 (c : Dev nD) (j : Fin 144) :
    (V m c main_v3 : S1x144.Idx → EReal) (ix2 (0 : Fin 1) j)
      = fuse (fun j => b1a m c (ix1 j)) (fun j => b1b m c (ix1 j)) j := by
  have e : (V m c main_v3 : S1x144.Idx → EReal)
      = shapeCast S1x144 (concatenate S144 0 [⟨S128, b1a m c⟩, ⟨S16, b1b m c⟩] concatenates_S128_S16_S144_d0)
          shapeCasts_S144_S1x144 := by
    dsimp only [Gen.V, Gen.hostOps0]; after_results; rfl
  rw [e, shapeCast_a_1a_apply]
  by_cases h : j.val < 128
  · rw [fuse_left _ _ j h]
    refine concatenate_pair_apply_left (t := S144) (s₁ := S128) (s₂ := S16) 0 _ _ _ (ix1 j) rfl
      (ix1 (⟨j.val, h⟩ : Fin 128)) (fun b => ?_)
    match b with
    | ⟨0, _⟩ => rfl
  · rw [fuse_right _ _ j (by omega)]
    refine concatenate_pair_apply_right (t := S144) (s₁ := S128) (s₂ := S16) 0 _ _ _ (ix1 j) rfl rfl
      (ix1 (⟨j.val - 128, by omega⟩ : Fin 16)) (fun b hb => ?_) ?_
    · match b with
      | ⟨0, _⟩ => exact absurd rfl hb
    · show j.val - 128 + 128 = j.val
      omega

/-- The second-layer table the region keeps resident: at `(r, j)` the table's row `j`, column `r`. -/
theorem table2 (c : Dev nD) (r : Fin 30) (j : Fin 256) :
    (V m c main_v5 : S30x256.Idx → EReal) (ix2 r j) = w2 m c (ix2 j r) := by
  have e : (V m c main_v5 : S30x256.Idx → EReal) = transpose S30x256 [1, 0] (w2 m c) transposes_S256x30_S30x256_1_0 := by
    dsimp only [Gen.V, Gen.hostOps0]; after_results
  rw [e, transpose_ix2_apply]

/-- The second-layer bias row the region keeps resident. -/
theorem bias2 (c : Dev nD) (j : Fin 256) :
    (V m c main_v6 : S1x256.Idx → EReal) (ix2 (0 : Fin 1) j) = b2 m c (ix1 j) := by
  have e : (V m c main_v6 : S1x256.Idx → EReal) = shapeCast S1x256 (b2 m c) shapeCasts_S256_S1x256 := by
    dsimp only [Gen.V, Gen.hostOps0]; after_results; rfl
  rw [e, shapeCast_a_1a_apply]

/-- The last layer's bias row the region keeps resident. -/
theorem bias3 (c : Dev nD) (j : Fin 8) :
    (V m c main_v7 : S1x8.Idx → EReal) (ix2 (0 : Fin 1) j) = b3 m c (ix1 j) := by
  have e : (V m c main_v7 : S1x8.Idx → EReal) = shapeCast S1x8 (b3 m c) shapeCasts_S8_S1x8 := by
    dsimp only [Gen.V, Gen.hostOps0]; after_results; rfl
  rw [e, shapeCast_a_1a_apply]

/-- The feature array and the last layer's table are argument arrays the region finds as launched. -/
theorem features (c : Dev nD) : (V m c main_arg0 : S65536x1024.Idx → EReal) = feats m c := V_main_arg0 m c
theorem table3 (c : Dev nD) : (V m c main_arg8 : S8x32.Idx → EReal) = w3 m c := V_main_arg8 m c

end Cert.Stacked.Staged

/-! ## The whole result array -/
namespace Cert.Stacked.Staged

open Cert.KernelIdeal Cert.KernelIdeal.Gen Cert.Stacked Idealize.ShloMosaic Idealize.ShloMosaic.TcCoe Idealize.ShloMosaic.ValueIdx
open Idealize.SL.Sem

variable (m : (ℓ : Loc nD τ sig) → Buf (Elt Ideal) ℓ)

/-- A selector word as an element of `[0, 8)` (the word's value when it is in range). -/
def sel8 (w : BitVec 32) : Fin 8 := ⟨w.toNat % 8, Nat.mod_lt _ (by decide)⟩

/-- A word whose signed value is in `[0, 8)` is the numeral of its selector. -/
theorem word_eq_sel8 (w : BitVec 32) (h0 : 0 ≤ w.toInt) (h8 : w.toInt < 8) : w = BitVec.ofNat 32 (sel8 w).val := by
  have hc := BitVec.toInt_eq_toNat_cond w
  have hlt := w.isLt
  have hn : w.toNat < 8 := by
    split at hc <;> omega
  apply BitVec.eq_of_toNat_eq
  rw [BitVec.toNat_ofNat]
  show w.toNat = w.toNat % 8 % 2 ^ 32
  omega

/-- The value of batch row `R`: the row specification at that row's features and selector and the argument tables. -/
def rowVal (c : Dev nD) (R : Fin 65536) : EReal :=
  rowOut (fun k => feats m c (ix2 R k)) (sel8 (sels m c (ix1 R)))
    (fuse (fun j k => w1a m c (ix2 j k)) (fun j k => w1b m c (ix2 j k)))
    (fuse (fun j => b1a m c (ix1 j)) (fun j => b1b m c (ix1 j)))
    (fun j r => w2 m c (ix2 j r)) (fun j => b2 m c (ix1 j)) (fun e s => w3 m c (ix2 e s)) (fun e => b3 m c (ix1 e))

/-- The result array `[65536, 1]`: row `R` holds the value of batch row `R`. -/
def outArr (c : Dev nD) : S65536x1.Idx → EReal := fun i => rowVal m c ⟨(i 0).val, idx2_lt0 i⟩

end Cert.Stacked.Staged

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.LibColumn.lean ====
/-
  A column vector made from a vector, and broadcast along rows, read at an index.

  A vector `x : [a]` cast to the column `[a, 1]` reads, at `(i, u)`, `x i`; a column `v : [a, 1]` broadcast to `[a, b]`
  reads, at `(p, c)`, the column's entry of row `p`. Together: a per-row quantity (a row's maximum, a row's sum) kept as a
  column and subtracted from or divided into every entry of its row.
-/
import Idealize.ShloMosaic.Lib.Pipeline.Value
import Idealize.ShloMosaic.Lib.ValueIdx
import Idealize.ShloMosaic.Lib.ValueLayout

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and broadcast along the rows reads, at `(p, c)`, the vector at `p`. -/
theorem broadcastTo_column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.Lib.Column

end
-- ==== Proof.LibLaneSums.lean ====
/-
  Sums over the last axis, and a value kept along a new last axis, read at an index.

  On the extended reals a `vector.multi_reduction <add>` over the last axis of a rank-2 array `[a, b]` reads, at row `r`,
  the sum over `k` of the entries `(r, k)`; over the last axis of a rank-3 array `[a, b, c]` it reads, at `(p, q)`, the sum
  over `k` of the entries `(p, q, k)`. A rank-2 array `[a, b]` cast to `[a, b, 1]` and broadcast to `[a, b, c]` reads, at
  `(p, q, k)`, the array at `(p, q)`: a per-position quantity applied to every entry of the last axis.
-/
import Idealize.ShloMosaic.PureOps.Ideal.Laws
import Idealize.ShloMosaic.Lib.Pipeline.Value
import Idealize.ShloMosaic.Lib.ValueIdx

noncomputable section

namespace Cert.Lib.LaneSums

open Idealize.ShloMosaic Idealize.ShloMosaic.ValueIdx

/-- The sum over the columns of a rank-2 array, at row `r`. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v ?_
  funext c
  apply Fin.ext
  match c with
  | ⟨0, _⟩ => rfl
  | ⟨1, _⟩ => rfl

/-- The sum over the last axis of a rank-3 array, at `(p, q)`. -/
theorem sum_axis2_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v _ h hφ hacc (ix2 p q)).trans ?_
  refine Finset.sum_congr rfl fun k _ => congrArg v ?_
  funext d
  apply Fin.ext
  match d with
  | ⟨0, _⟩ => rfl
  | ⟨1, _⟩ => rfl
  | ⟨2, _⟩ => rfl

variable {α : Type}

/-- An `[a, b]` array cast to `[a, b, 1]` and broadcast to `[a, b, c]` reads, at `(p, q, k)`, the array at `(p, q)`. -/
theorem broadcastTo_lastAxis_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h) h' (ix3 p q k) = x (ix2 p q) := by
  refine (broadcastTo_apply _ h' (ix3 p q k) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply x h _ _ ?_
    rw [Shape.rowMajor_val_two, Shape.rowMajor_val_three]
    show p.val * b + q.val = (p.val * b + q.val) * 1 + 0
    omega

end Cert.Lib.LaneSums

end
-- ==== Proof.BodyRow1.lean ====
/-
  The kernel's first layer and its selection of a stack, read entry by entry on the extended reals.

  The indicator matrix `[2048, 8]` compares each row's selector word with the words `0 … 7`; the first layer is one
  product `[2048, 1024] × [1024, 144]` into a zero accumulator plus a bias row; its first 128 columns are eight stacks
  of 16 outputs and its last 16 columns the shared outputs; the eight stacks are added up, each weighted by its
  indicator column. Each lemma here reads one of these values at an entry `(p, ·)` in terms of the values it was
  computed from, at entries of the same row `p`.
-/
import proofs.«404139_j62483184222247_2_alg».proof.Proof.Gen.KernelIdeal.Skeleton
import proofs.«404139_j62483184222247_2_alg».proof.Proof.LibMatmulPlain
import proofs.«404139_j62483184222247_2_alg».proof.Proof.LibColumn
import proofs.«404139_j62483184222247_2_alg».proof.Proof.LibLaneSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Stacked.Body

open Cert.KernelIdeal Cert.KernelIdeal.Gen Idealize.ShloMosaic Idealize.ShloMosaic.ValueIdx
open Cert.Lib.Column Cert.Lib.LaneSums Cert.Lib.MatmulPlain

/-- The indicator matrix at `(p, c)`: one where the selector word of row `p` is the word `c`, else zero. -/
theorem pay5_apply (x1 : Vec Ideal S2048x1 .i32) (p : Fin 2048) (c e : Fin 8)
    (he : x1 (ix2 p 0) = BitVec.ofNat 32 e.val) :
    k0_pay5 (F := Ideal) x1 (ix2 p c) = if c = e then (1 : EReal) else 0 := by
  unfold k0_pay5
  show ((((IntOp.cmpi .eq (broadcastTo S2048x8 (shapeCast S2048x1 x1 _) _ (ix2 p c))
      (broadcastTo S2048x8 (iota .tc S1x8 32 [1] _) _ (ix2 p c))).setWidth 32).toInt : ℝ) : EReal) = _
  rw [broadcastTo_a1_ab_apply, shapeCast_self, broadcastTo_1b_ab_apply, iota_single_apply, he]
  show ((((IntOp.cmpi .eq (BitVec.ofNat 32 e.val) (BitVec.ofNat 32 c.val)).setWidth 32).toInt : ℝ) : EReal) = _
  by_cases hce : c = e
  · subst hce
    rw [IntOp.cmpi_eq.mpr rfl, if_pos rfl]
    have h1 : ((1#1 : BitVec 1).setWidth 32).toInt = 1 := by decide
    rw [h1]; simp
  · have hne : ¬ IntOp.cmpi .eq (BitVec.ofNat 32 e.val) (BitVec.ofNat 32 c.val) = 1#1 := by
      intro h
      have h2 := congrArg BitVec.toNat (IntOp.cmpi_eq.mp h)
      simp only [BitVec.toNat_ofNat] at h2
      have := e.isLt; have := c.isLt
      exact hce (Fin.ext (by omega))
    rw [eq_zero_of_ne_one hne, if_neg hce]
    have h0 : ((0#1 : BitVec 1).setWidth 32).toInt = 0 := by decide
    rw [h0]; simp

/-- The first layer at `(p, j)`: the row's features against column `j` of the table, plus the bias entry. -/
theorem pay2_apply (v0 : Vec Ideal S2048x1024 .f32) (v2 : Vec Ideal S1024x144 .f32) (v6 : Vec Ideal S1x144 .f32)
    (p : Fin 2048) (j : Fin 144) :
    k0_pay2 v0 v2 v6 (ix2 p j) = (∑ k : Fin 1024, v0 (ix2 p k) * v2 (ix2 k j)) + v6 (ix2 (0 : Fin 1) j) := by
  unfold k0_pay2
  simp only [addf_apply, matmul, matmul_zero_apply dot_S2048x1024_S1024x144_S2048x144_1_0_0_1_n_n rfl rfl rfl rfl rfl rfl,
    broadcastTo_1b_ab_apply, shapeCast_self, truncf_apply]

/-- The eight stacks' outputs are the first 128 columns of the first layer. -/
theorem pay3_apply (v0 : Vec Ideal S2048x1024 .f32) (v2 : Vec Ideal S1024x144 .f32) (v6 : Vec Ideal S1x144 .f32)
    (p : Fin 2048) (j : Fin 128) :
    k0_pay3 v0 v2 v6 (ix2 p j) = k0_pay2 v0 v2 v6 (ix2 p (⟨0 + j.val, by omega⟩ : Fin 144)) := by
  unfold k0_pay3
  exact slice2_axis1_eq 0 _ _ p j

/-- The shared outputs are its last 16 columns. -/
theorem pay4_apply (v0 : Vec Ideal S2048x1024 .f32) (v2 : Vec Ideal S1024x144 .f32) (v6 : Vec Ideal S1x144 .f32)
    (p : Fin 2048) (q : Fin 16) :
    k0_pay4 v0 v2 v6 (ix2 p q) = k0_pay2 v0 v2 v6 (ix2 p (⟨128 + q.val, by omega⟩ : Fin 144)) := by
  unfold k0_pay4
  exact slice2_axis1_eq 128 _ _ p q

/-- The sixth stack's outputs. -/
theorem pay7_apply (v0 : Vec Ideal S2048x1024 .f32) (v2 : Vec Ideal S1024x144 .f32) (v6 : Vec Ideal S1x144 .f32)
    (p : Fin 2048) (q : Fin 16) :
    k0_pay7 v0 v2 v6 (ix2 p q) = k0_pay3 v0 v2 v6 (ix2 p (⟨80 + q.val, by omega⟩ : Fin 128)) := by
  unfold k0_pay7
  exact slice2_axis1_eq 80 _ _ p q

/-- The sixth indicator column along the rows. -/
theorem pay8_apply (v12 : Vec Ideal S2048x1 .i32) (p : Fin 2048) (q : Fin 16) :
    k0_pay8 (F := Ideal) v12 (ix2 p q) = k0_pay5 (F := Ideal) v12 (ix2 p (5 : Fin 8)) := by
  unfold k0_pay8
  exact (broadcastTo_a1_ab_apply _ _ p q).trans (slice2_axis1_apply 5 _ _ p 0 5 rfl)

/-- The first five indicator-weighted stacks added onto the zero splat. -/
theorem pay6_apply (v0 : Vec Ideal S2048x1024 .f32) (v2 : Vec Ideal S1024x144 .f32) (v6 : Vec Ideal S1x144 .f32)
    (v12 : Vec Ideal S2048x1 .i32) (p : Fin 2048) (q : Fin 16) :
    k0_pay6 v0 v2 v6 v12 (ix2 p q)
      = Ideal.ofBits .f32 0x00000000#32
        + k0_pay5 (F := Ideal) v12 (ix2 p (0 : Fin 8)) * k0_pay3 v0 v2 v6 (ix2 p (⟨0 + q.val, by omega⟩ : Fin 128))
        + k0_pay5 (F := Ideal) v12 (ix2 p (1 : Fin 8)) * k0_pay3 v0 v2 v6 (ix2 p (⟨16 + q.val, by omega⟩ : Fin 128))
        + k0_pay5 (F := Ideal) v12 (ix2 p (2 : Fin 8)) * k0_pay3 v0 v2 v6 (ix2 p (⟨32 + q.val, by omega⟩ : Fin 128))
        + k0_pay5 (F := Ideal) v12 (ix2 p (3 : Fin 8)) * k0_pay3 v0 v2 v6 (ix2 p (⟨48 + q.val, by omega⟩ : Fin 128))
        + k0_pay5 (F := Ideal) v12 (ix2 p (4 : Fin 8)) * k0_pay3 v0 v2 v6 (ix2 p (⟨64 + q.val, by omega⟩ : Fin 128)) := by
  unfold k0_pay6
  simp only [addf_apply, mulf_apply, broadcast_apply, broadcastTo_a1_ab_apply, slice2_axis1_eq, Ideal.ofBits_def]
  rfl
/-- The last two indicator-weighted slices added onto the first six: the accumulated stack at `(p, q)`. -/
theorem pay9_apply (v10 : FVec Ideal S2048x128 .f32) (v19 : FVec Ideal S2048x8 .f32) (v45 v47 v48 : FVec Ideal S2048x16 .f32)
    (p : Fin 2048) (q : Fin 16) :
    k0_pay9 v10 v19 v45 v47 v48 (ix2 p q)
      = v45 (ix2 p q) + v48 (ix2 p q) * v47 (ix2 p q)
        + v19 (ix2 p (6 : Fin 8)) * v10 (ix2 p (⟨96 + q.val, by omega⟩ : Fin 128))
        + v19 (ix2 p (7 : Fin 8)) * v10 (ix2 p (⟨112 + q.val, by omega⟩ : Fin 128)) := by
  unfold k0_pay9
  show (v45 (ix2 p q) + v48 (ix2 p q) * v47 (ix2 p q)
      + broadcastTo S2048x16 (extractStridedSlice S2048x1 ![0, 6] v19 _) _ (ix2 p q) * extractStridedSlice S2048x16 ![0, 96] v10 _ (ix2 p q))
      + broadcastTo S2048x16 (extractStridedSlice S2048x1 ![0, 7] v19 _) _ (ix2 p q) * extractStridedSlice S2048x16 ![0, 112] v10 _ (ix2 p q) = _
  rw [broadcastTo_a1_ab_apply, broadcastTo_a1_ab_apply, slice2_axis1_eq, slice2_axis1_eq, slice2_axis1_eq, slice2_axis1_eq]
  rfl

theorem pay10_apply (v10 : FVec Ideal S2048x128 .f32) (v19 : FVec Ideal S2048x8 .f32) (v45 v47 v48 : FVec Ideal S2048x16 .f32)
    (p : Fin 2048) :
    k0_pay10 v10 v19 v45 v47 v48 (ix2 p (0 : Fin 1)) = k0_pay9 v10 v19 v45 v47 v48 (ix2 p (15 : Fin 16)) := by
  unfold k0_pay10
  exact slice2_axis1_apply 15 _ _ p 0 15 rfl

theorem pay11_apply (v11 : FVec Ideal S2048x16 .f32) (p : Fin 2048) :
    k0_pay11 v11 (ix2 p (0 : Fin 1)) = v11 (ix2 p (15 : Fin 16)) := by
  unfold k0_pay11
  exact slice2_axis1_apply 15 _ _ p 0 15 rfl

theorem pay14_apply (v19 : FVec Ideal S2048x8 .f32) (p : Fin 2048) :
    k0_pay14 v19 (ix2 p (0 : Fin 1)) = v19 (ix2 p (3 : Fin 8)) := by
  unfold k0_pay14
  exact slice2_axis1_apply 3 _ _ p 0 3 rfl

end Cert.Stacked.Body
end
-- ==== Proof.BodyRow2.lean ====
/-
  The kernel's second layer, its selection of a stack, and the last block, read entry by entry on the extended reals.

  From the 15 sums of the kept stack and the shared outputs the second layer's 30 inputs are the scaled squares followed
  by the sums, clamped to `[0, 1]`; the second layer is one product `[2048, 30] × [30, 256]` into a zero accumulator plus
  a bias row; its eight stacks of 32 outputs are added up, each weighted by its indicator column, and clamped; the last
  block takes the lane sum of the result against the indicator's product with the `[8, 32]` table, adds the lane sum of
  the indicator against the bias row, and the two columns carried from the first layer.
-/
import proofs.«404139_j62483184222247_2_alg».proof.Proof.Gen.KernelIdeal.Skeleton
import proofs.«404139_j62483184222247_2_alg».proof.Proof.LibMatmulPlain
import proofs.«404139_j62483184222247_2_alg».proof.Proof.LibColumn
import proofs.«404139_j62483184222247_2_alg».proof.Proof.LibLaneSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Stacked.Body

open Cert.KernelIdeal Cert.KernelIdeal.Gen Idealize.ShloMosaic Idealize.ShloMosaic.ValueIdx
open Cert.Lib.Column Cert.Lib.LaneSums Cert.Lib.MatmulPlain

/-- The second layer at `(p, j)`, from the 15 sums `H` of the kept stack and the shared outputs: the scaled squares and the
    sums, clamped, against column `j` of the table, plus the bias entry. -/
theorem pay12_apply (v10 : FVec Ideal S2048x128 .f32) (v11 : FVec Ideal S2048x16 .f32) (v19 : FVec Ideal S2048x8 .f32)
    (v45 v47 v48 : FVec Ideal S2048x16 .f32) (v75 : Vec Ideal S30x256 .f32) (v79 : Vec Ideal S1x256 .f32)
    (p : Fin 2048) (j : Fin 256) (H : Fin 15 → EReal)
    (hH : ∀ q : Fin 15, k0_pay9 v10 v19 v45 v47 v48 (ix2 p (⟨0 + q.val, by omega⟩ : Fin 16))
        + v11 (ix2 p (⟨0 + q.val, by omega⟩ : Fin 16)) = H q) :
    k0_pay12 v10 v11 v19 v45 v47 v48 v75 v79 (ix2 p j)
      = (∑ r : Fin 30,
          min (Ideal.ofBits .f32 0x3F800000#32) (max (Ideal.ofBits .f32 0x00000000#32)
            (if h : r.val < 15 then H ⟨r.val, h⟩ * H ⟨r.val, h⟩ * Ideal.ofBits .f32 0x3F7E0000#32
              else H ⟨r.val - 15, by omega⟩)) * v75 (ix2 r j))
        + v79 (ix2 (0 : Fin 1) j) := by
  unfold k0_pay12
  simp only [addf_apply, matmul, matmul_zero_apply dot_S2048x30_S30x256_S2048x256_1_0_0_1_n_n rfl rfl rfl rfl rfl rfl,
    broadcastTo_1b_ab_apply, shapeCast_self, truncf_apply]
  refine congrArg₂ (· + ·) (Finset.sum_congr rfl fun r _ => congrArg₂ (· * ·) ?_ rfl) rfl
  simp only [minimumf_apply, maximumf_apply, broadcast_apply, Ideal.ofBits_def]
  refine congrArg (min _) (congrArg (max _) ?_)
  by_cases h : r.val < 15
  · rw [dif_pos h]
    refine (concatenate_pair_apply_left (t := S2048x30) (s₁ := S2048x15) (s₂ := S2048x15) _ _ _ _ (ix2 p r) rfl (ix2 p (⟨r.val, h⟩ : Fin 15)) fun b => ?_).trans ?_
    · match b with
      | ⟨0, _⟩ => rfl
      | ⟨1, _⟩ => rfl
    · simp only [mulf_apply, addf_apply, broadcast_apply, slice2_axis1_eq, Ideal.ofBits_def]
      rw [hH ⟨r.val, h⟩]
  · rw [dif_neg h]
    refine (concatenate_pair_apply_right (t := S2048x30) (s₁ := S2048x15) (s₂ := S2048x15) _ _ _ _ (ix2 p r) rfl rfl (ix2 p (⟨r.val - 15, by omega⟩ : Fin 15)) (fun b hb => ?_) ?_).trans ?_
    · match b with
      | ⟨0, _⟩ => rfl
      | ⟨1, _⟩ => exact absurd rfl hb
    · show r.val - 15 + 15 = r.val
      omega
    · simp only [addf_apply, slice2_axis1_eq]
      exact hH ⟨r.val - 15, by omega⟩

/-- The first three indicator-weighted width-32 slices of the second layer's outputs, added onto the zero splat. -/
theorem pay13_apply (v10 : FVec Ideal S2048x128 .f32) (v11 : FVec Ideal S2048x16 .f32) (v19 : FVec Ideal S2048x8 .f32)
    (v45 v47 v48 : FVec Ideal S2048x16 .f32) (v75 : Vec Ideal S30x256 .f32) (v79 : Vec Ideal S1x256 .f32)
    (p : Fin 2048) (s : Fin 32) :
    k0_pay13 v10 v11 v19 v45 v47 v48 v75 v79 (ix2 p s)
      = Ideal.ofBits .f32 0x00000000#32
        + v19 (ix2 p (0 : Fin 8)) * k0_pay12 v10 v11 v19 v45 v47 v48 v75 v79 (ix2 p (⟨0 + s.val, by omega⟩ : Fin 256))
        + v19 (ix2 p (1 : Fin 8)) * k0_pay12 v10 v11 v19 v45 v47 v48 v75 v79 (ix2 p (⟨32 + s.val, by omega⟩ : Fin 256))
        + v19 (ix2 p (2 : Fin 8)) * k0_pay12 v10 v11 v19 v45 v47 v48 v75 v79 (ix2 p (⟨64 + s.val, by omega⟩ : Fin 256)) := by
  unfold k0_pay13
  simp only [addf_apply, mulf_apply, broadcast_apply, broadcastTo_a1_ab_apply, slice2_axis1_eq, Ideal.ofBits_def]
  rfl

/-- The last block at row `p`: the five remaining indicator-weighted slices added on, the clamp, the lane sum against
    the selected table row, the selected bias entry, and the two carried columns. -/
theorem pay1_apply (v19 : FVec Ideal S2048x8 .f32) (v62 v64 : FVec Ideal S2048x1 .f32) (v82 : FVec Ideal S2048x256 .f32)
    (v98 : FVec Ideal S2048x32 .f32) (v99 : FVec Ideal S2048x1 .f32) (v129 : Vec Ideal S8x32 .f32) (v132 : Vec Ideal S1x8 .f32)
    (p : Fin 2048) :
    k0_pay1 v19 v62 v64 v82 v98 v99 v129 v132 (ix2 p (0 : Fin 1))
      = ((∑ s : Fin 32,
            min (Ideal.ofBits .f32 0x3F800000#32) (max (Ideal.ofBits .f32 0x00000000#32)
              (v98 (ix2 p s) + v99 (ix2 p (0 : Fin 1)) * v82 (ix2 p (⟨96 + s.val, by omega⟩ : Fin 256))
                + v19 (ix2 p (4 : Fin 8)) * v82 (ix2 p (⟨128 + s.val, by omega⟩ : Fin 256))
                + v19 (ix2 p (5 : Fin 8)) * v82 (ix2 p (⟨160 + s.val, by omega⟩ : Fin 256))
                + v19 (ix2 p (6 : Fin 8)) * v82 (ix2 p (⟨192 + s.val, by omega⟩ : Fin 256))
                + v19 (ix2 p (7 : Fin 8)) * v82 (ix2 p (⟨224 + s.val, by omega⟩ : Fin 256))))
              * ∑ c : Fin 8, v19 (ix2 p c) * v129 (ix2 c s))
          + ∑ c : Fin 8, v19 (ix2 p c) * v132 (ix2 (0 : Fin 1) c))
        + v64 (ix2 p (0 : Fin 1)) + v62 (ix2 p (0 : Fin 1)) := by
  unfold k0_pay1
  dsimp only
  simp only [addf_apply]
  refine congrArg₂ (· + ·) (congrArg₂ (· + ·) (congrArg₂ (· + ·) ?_ ?_) rfl) rfl
  · refine (shapeCast_a_a1_apply _ _ p 0).trans ((sum_axis1_apply _ _ _ _ p).trans (Finset.sum_congr rfl fun s _ => ?_))
    simp only [matmul, mulf_apply, addf_apply, minimumf_apply, maximumf_apply, broadcast_apply, truncf_apply,
      matmul_zero_apply dot_S2048x8_S8x32_S2048x32_1_0_0_1_n_n rfl rfl rfl rfl rfl rfl,
      broadcastTo_a1_ab_apply, slice2_axis1_eq, Ideal.ofBits_def]
    rfl
  · refine (shapeCast_a_a1_apply _ _ p 0).trans ((sum_axis1_apply _ _ _ _ p).trans (Finset.sum_congr rfl fun c _ => ?_))
    simp only [mulf_apply, broadcastTo_1b_ab_apply, shapeCast_self]

end Cert.Stacked.Body
end
-- ==== Proof.BodyRow.lean ====
/-
  Row `p` of the block the kernel body leaves in its output buffer is the row specification's result, for a row whose
  selector word is `e` in `[0, 8)`.

  The indicator row of `p` is the indicator of `e`; a sum of eight indicator-weighted terms is the term `e`; so the
  accumulated first-layer stack is the stack `e`, the accumulated second-layer stack is the stack `e`, the indicator's
  product with the `[8, 32]` table is row `e` of the table, and its lane sum against the bias row is entry `e`.
-/
import proofs.«404139_j62483184222247_2_alg».proof.Proof.Gen.KernelIdeal.Frame
import proofs.«404139_j62483184222247_2_alg».proof.Proof.RowSpec
import proofs.«404139_j62483184222247_2_alg».proof.Proof.BodyRow1
import proofs.«404139_j62483184222247_2_alg».proof.Proof.BodyRow2

noncomputable section

open scoped BigOperators

namespace Cert.Stacked.Body

open Cert.KernelIdeal Cert.KernelIdeal.Gen Cert.Stacked Idealize.ShloMosaic Idealize.ShloMosaic.ValueIdx
open Cert.Lib.Column Cert.Lib.LaneSums Cert.Lib.MatmulPlain

/-! ## Row `p` of the block against the row specification -/

section Row
variable (x0 : Vec Ideal S2048x1024 .f32) (x1 : Vec Ideal S2048x1 .i32) (x2 : Vec Ideal S1024x144 .f32)
  (x3 : Vec Ideal S1x144 .f32) (x4 : Vec Ideal S30x256 .f32) (x5 : Vec Ideal S1x256 .f32) (x6 : Vec Ideal S8x32 .f32)
  (x7 : Vec Ideal S1x8 .f32) (p : Fin 2048) (e : Fin 8)

/-- Row `p`'s features, and the tables and bias rows as the row specification reads them. -/
abbrev feats : Fin 1024 → EReal := fun k => x0 (ix2 p k)
abbrev tab1 : Fin 144 → Fin 1024 → EReal := fun j k => x2 (ix2 k j)
abbrev bias1 : Fin 144 → EReal := fun j => x3 (ix2 0 j)
abbrev tab2 : Fin 256 → Fin 30 → EReal := fun j r => x4 (ix2 r j)
abbrev bias2 : Fin 256 → EReal := fun j => x5 (ix2 0 j)

/-- The first layer at `(p, j)` is output `j` of the row's first affine map. -/
theorem first_apply (j : Fin 144) :
    k0_pay2 x0 x2 x3 (ix2 p j) = dense1 (feats x0 p) (tab1 x2) (bias1 x3) j :=
  pay2_apply x0 x2 x3 p j

/-- A stack column at `(p, j)`. -/
theorem stacks_apply (j : Fin 128) :
    k0_pay3 x0 x2 x3 (ix2 p j) = dense1 (feats x0 p) (tab1 x2) (bias1 x3) ⟨j.val, by omega⟩ :=
  (pay3_apply x0 x2 x3 p j).trans ((first_apply x0 x2 x3 p _).trans
    (congrArg (dense1 (feats x0 p) (tab1 x2) (bias1 x3)) (Fin.ext (Nat.zero_add _))))

/-- A shared column at `(p, q)`. -/
theorem shared_apply (q : Fin 16) :
    k0_pay4 x0 x2 x3 (ix2 p q) = shared1 (feats x0 p) (tab1 x2) (bias1 x3) q :=
  (pay4_apply x0 x2 x3 p q).trans (first_apply x0 x2 x3 p _)

variable (he : x1 (ix2 p 0) = BitVec.ofNat 32 e.val)
include he

/-- The indicator at `(p, c)` is the indicator of `c = e`. -/
theorem hot_apply (c : Fin 8) : k0_pay5 (F := Ideal) x1 (ix2 p c) = hot e c :=
  pay5_apply x1 p c e he

/-- The eight indicator-weighted stacks, added up, are the stack the selector names. -/
theorem kept_apply (q : Fin 16) :
    k0_pay9 (k0_pay3 x0 x2 x3) (k0_pay5 x1) (k0_pay6 x0 x2 x3 x1) (k0_pay7 x0 x2 x3) (k0_pay8 x1) (ix2 p q)
      = picked1 (feats x0 p) e (tab1 x2) (bias1 x3) q := by
  rw [pay9_apply, pay6_apply, pay8_apply, pay7_apply]
  simp only [hot_apply x1 p e he, stacks_apply x0 x2 x3 p]
  exact pick8 e (fun c => dense1 (feats x0 p) (tab1 x2) (bias1 x3) ⟨16 * c.val + q.val, by omega⟩)

/-- The second layer at `(p, j)` is output `j` of the row's second affine map. -/
theorem second_apply (j : Fin 256) :
    k0_pay12 (k0_pay3 x0 x2 x3) (k0_pay4 x0 x2 x3) (k0_pay5 x1) (k0_pay6 x0 x2 x3 x1) (k0_pay7 x0 x2 x3) (k0_pay8 x1) x4 x5 (ix2 p j)
      = dense2 (feats x0 p) e (tab1 x2) (bias1 x3) (tab2 x4) (bias2 x5) j := by
  refine (pay12_apply _ _ _ _ _ _ _ _ p j (hidden (feats x0 p) e (tab1 x2) (bias1 x3)) fun q => ?_).trans rfl
  rw [kept_apply x0 x1 x2 x3 p e he, shared_apply]
  have e0 : (⟨0 + q.val, by omega⟩ : Fin 16) = ⟨q.val, by omega⟩ := Fin.ext (Nat.zero_add _)
  rw [e0]
  rfl

end Row

section Out
variable (x0 : Vec Ideal S2048x1024 .f32) (x1 : Vec Ideal S2048x1 .i32) (x2 : Vec Ideal S1024x144 .f32)
  (x3 : Vec Ideal S1x144 .f32) (x4 : Vec Ideal S30x256 .f32) (x5 : Vec Ideal S1x256 .f32) (x6 : Vec Ideal S8x32 .f32)
  (x7 : Vec Ideal S1x8 .f32) (p : Fin 2048) (e : Fin 8) (he : x1 (ix2 p 0) = BitVec.ofNat 32 e.val)
include he

/-- The value the body leaves at row `p` of its output block is the row's result. -/
theorem body_row :
    out0_8 (F := Ideal) x0 x1 x2 x3 x4 x5 x6 x7 (ix2 p 0)
      = rowOut (fun k => x0 (ix2 p k)) e (fun j k => x2 (ix2 k j)) (fun j => x3 (ix2 0 j))
          (fun j r => x4 (ix2 r j)) (fun j => x5 (ix2 0 j)) (fun c s => x6 (ix2 c s)) (fun c => x7 (ix2 0 c)) := by
  have hz : (![0, 0] : Fin 2 → ℕ) = fun _ => 0 := funext fun a => by
    match a with
    | ⟨0, _⟩ => rfl
    | ⟨1, _⟩ => rfl
  unfold out0_8
  rw [View.canon_unit_zero hz]
  simp only [View.ld_unit_zero (S := S2048x1024) hz, View.ld_unit_zero (S := S2048x1) hz, View.ld_unit_zero (S := S1024x144) hz,
    View.ld_unit_zero (S := S1x144) hz, View.ld_unit_zero (S := S30x256) hz, View.ld_unit_zero (S := S1x256) hz,
    View.ld_unit_zero (S := S8x32) hz, View.ld_unit_zero (S := S1x8) hz]
  refine (pay1_apply _ _ _ _ _ _ _ _ p).trans ?_
  rw [pay10_apply, pay11_apply, kept_apply x0 x1 x2 x3 p e he, shared_apply]
  simp only [pay13_apply, pay14_apply, hot_apply x1 p e he, second_apply x0 x1 x2 x3 x4 x5 p e he]
  refine congrArg₂ (· + ·) (congrArg₂ (· + ·) (congrArg₂ (· + ·) (Finset.sum_congr rfl fun s _ => congrArg₂ (· * ·) ?_ ?_) ?_) rfl) rfl
  · refine congrArg (min _) (congrArg (max _) ?_)
    exact pick8 e (fun c => dense2 (feats x0 p) e (tab1 x2) (bias1 x3) (tab2 x4) (bias2 x5) ⟨32 * c.val + s.val, by omega⟩)
  · exact sum_hot e (fun c => x6 (ix2 c s))
  · exact sum_hot e (fun c => x7 (ix2 0 c))

end Out

end Cert.Stacked.Body
end
-- ==== Proof.Blocks.lean ====
/-
  From blocks to the array. Grid point `t` of the 32 streams rows `2048 t … 2048 t + 2047` of the feature array and of
  the selector column, keeps every table whole, and writes back rows `2048 t … 2048 t + 2047` of the result column.
  What it writes at row `p` of its block is the body's value at that row, which is the value of batch row
  `2048 t + p`; the 32 blocks tile the result column, so the column ends holding every row's value.
-/
import proofs.«404139_j62483184222247_2_alg».proof.Proof.Gen.KernelIdeal.Value
import proofs.«404139_j62483184222247_2_alg».proof.Proof.Staged
import proofs.«404139_j62483184222247_2_alg».proof.Proof.BodyRow
import Idealize.ShloMosaic.Lib.ValueIdx
import Idealize.ShloMosaic.Lib.Pipeline.Value

noncomputable section

namespace Cert.Stacked.Blocks

open Cert.KernelIdeal Cert.KernelIdeal.Gen Cert.KernelIdeal.Value Cert.Stacked Cert.Stacked.Staged
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input windows' blocks at a point, under their literal types. -/
abbrev blk0 (c : Dev nD) (t : Fin cfg0.N) : Vec Ideal S2048x1024 .f32 := iblk m c 0 t
abbrev blk1 (c : Dev nD) (t : Fin cfg0.N) : Vec Ideal S2048x1 .i32 := iblk m c 1 t
abbrev blk2 (c : Dev nD) (t : Fin cfg0.N) : Vec Ideal S1024x144 .f32 := iblk m c 2 t
abbrev blk3 (c : Dev nD) (t : Fin cfg0.N) : Vec Ideal S1x144 .f32 := iblk m c 3 t
abbrev blk4 (c : Dev nD) (t : Fin cfg0.N) : Vec Ideal S30x256 .f32 := iblk m c 4 t
abbrev blk5 (c : Dev nD) (t : Fin cfg0.N) : Vec Ideal S1x256 .f32 := iblk m c 5 t
abbrev blk6 (c : Dev nD) (t : Fin cfg0.N) : Vec Ideal S8x32 .f32 := iblk m c 6 t
abbrev blk7 (c : Dev nD) (t : Fin cfg0.N) : Vec Ideal S1x8 .f32 := iblk m c 7 t

/-- The printed index maps over the 32 points: the streamed windows' block index is the point, every other is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 32 := t.isLt

/-- The batch row that row `p` of point `t`'s blocks is. -/
def rowOf (t : Fin cfg0.N) (p : Fin 2048) : Fin 65536 := ⟨2048 * t.val + p.val, by have := point_lt t; omega⟩

theorem blk0_apply (c : Dev nD) (t : Fin cfg0.N) (p : Fin 2048) (k : Fin 1024) :
    blk0 m c t (ix2 p k) = feats m c (ix2 (rowOf t p) k) := by
  show V m c main_arg0 (((cfg0.win 0).blk t).view.emb (ix2 p k)) = _
  rw [Staged.features]
  refine congrArg (feats m c) (funext fun a => Fin.ext ?_)
  obtain ⟨e0, e1, -⟩ := idx_facts t
  match a with
  | ⟨0, _⟩ => show win0_0.index t (0 : Fin 2) * 2048 + 1 * p.val = 2048 * t.val + p.val; omega
  | ⟨1, _⟩ => show win0_0.index t (1 : Fin 2) * 1024 + 1 * k.val = k.val; omega

theorem blk1_apply (c : Dev nD) (t : Fin cfg0.N) (p : Fin 2048) :
    blk1 m c t (ix2 p (0 : Fin 1)) = sels m c (ix1 (rowOf t p)) := by
  rw [← Staged.selectors]
  show V m c main_v0 (((cfg0.win 1).blk t).view.emb (ix2 p (0 : Fin 1))) = _
  refine congrArg (V m c main_v0) (funext fun a => Fin.ext ?_)
  obtain ⟨-, -, e0, e1, -⟩ := idx_facts t
  match a with
  | ⟨0, _⟩ => show win0_1.index t (0 : Fin 2) * 2048 + 1 * p.val = 2048 * t.val + p.val; omega
  | ⟨1, _⟩ => show win0_1.index t (1 : Fin 2) * 1 + 1 * 0 = 0; omega

theorem blk2_apply (c : Dev nD) (t : Fin cfg0.N) (k : Fin 1024) (j : Fin 144) :
    blk2 m c t (ix2 k j) = fuse (fun j k => w1a m c (ix2 j k)) (fun j k => w1b m c (ix2 j k)) j k := by
  rw [← Staged.table1]
  show V m c main_v4 (((cfg0.win 2).blk t).view.emb (ix2 k j)) = _
  refine congrArg (V m c main_v4) (funext fun a => Fin.ext ?_)
  obtain ⟨-, -, -, -, e0, e1, -⟩ := idx_facts t
  match a with
  | ⟨0, _⟩ => show win0_2.index t (0 : Fin 2) * 1024 + 1 * k.val = k.val; omega
  | ⟨1, _⟩ => show win0_2.index t (1 : Fin 2) * 144 + 1 * j.val = j.val; omega

theorem blk3_apply (c : Dev nD) (t : Fin cfg0.N) (j : Fin 144) :
    blk3 m c t (ix2 (0 : Fin 1) j) = fuse (fun j => b1a m c (ix1 j)) (fun j => b1b m c (ix1 j)) j := by
  rw [← Staged.bias1]
  show V m c main_v3 (((cfg0.win 3).blk t).view.emb (ix2 (0 : Fin 1) j)) = _
  refine congrArg (V m c main_v3) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 144 + 1 * j.val = j.val; omega

theorem blk4_apply (c : Dev nD) (t : Fin cfg0.N) (r : Fin 30) (j : Fin 256) :
    blk4 m c t (ix2 r j) = w2 m c (ix2 j r) := by
  rw [← Staged.table2]
  show V m c main_v5 (((cfg0.win 4).blk t).view.emb (ix2 r j)) = _
  refine congrArg (V m c main_v5) (funext fun a => Fin.ext ?_)
  obtain ⟨-, -, -, -, -, -, -, -, e0, e1, -⟩ := idx_facts t
  match a with
  | ⟨0, _⟩ => show win0_4.index t (0 : Fin 2) * 30 + 1 * r.val = r.val; omega
  | ⟨1, _⟩ => show win0_4.index t (1 : Fin 2) * 256 + 1 * j.val = j.val; omega

theorem blk5_apply (c : Dev nD) (t : Fin cfg0.N) (j : Fin 256) :
    blk5 m c t (ix2 (0 : Fin 1) j) = b2 m c (ix1 j) := by
  rw [← Staged.bias2]
  show V m c main_v6 (((cfg0.win 5).blk t).view.emb (ix2 (0 : Fin 1) j)) = _
  refine congrArg (V m c main_v6) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 256 + 1 * j.val = j.val; omega

theorem blk6_apply (c : Dev nD) (t : Fin cfg0.N) (e : Fin 8) (s : Fin 32) :
    blk6 m c t (ix2 e s) = w3 m c (ix2 e s) := by
  show V m c main_arg8 (((cfg0.win 6).blk t).view.emb (ix2 e s)) = _
  rw [Staged.table3]
  refine congrArg (w3 m c) (funext fun a => Fin.ext ?_)
  obtain ⟨-, -, -, -, -, -, -, -, -, -, -, -, e0, e1, -⟩ := idx_facts t
  match a with
  | ⟨0, _⟩ => show win0_6.index t (0 : Fin 2) * 8 + 1 * e.val = e.val; omega
  | ⟨1, _⟩ => show win0_6.index t (1 : Fin 2) * 32 + 1 * s.val = s.val; omega

theorem blk7_apply (c : Dev nD) (t : Fin cfg0.N) (e : Fin 8) :
    blk7 m c t (ix2 (0 : Fin 1) e) = b3 m c (ix1 e) := by
  rw [← Staged.bias3]
  show V m c main_v7 (((cfg0.win 7).blk t).view.emb (ix2 (0 : Fin 1) e)) = _
  refine congrArg (V m c main_v7) (funext fun a => Fin.ext ?_)
  obtain ⟨-, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 8 + 1 * e.val = e.val; omega

/-- Every selector of the launch memory is in `[0, 8)` as a signed integer. -/
def InRange (c : Dev nD) : Prop := ∀ i : S65536.Idx, 0 ≤ (sels m c i).toInt ∧ (sels m c i).toInt < 8

/-- WHAT POINT `t` WRITES BACK is block `t` of the result array. -/
theorem flushed8_eq (c : Dev nD) (hr : InRange m c) (t : Fin cfg0.N) :
    (dats m 0 c).flushed 8 t = ((cfg0.win 8).blk t).view.read (Elt Ideal) (outArr m c) := by
  rw [Value.flushed8]
  funext j
  obtain ⟨p, u, rfl⟩ : ∃ (p : Fin 2048) (u : Fin 1), j = ix2 p u := ⟨j 0, j 1, eq_ix2 j⟩
  obtain rfl : u = 0 := Subsingleton.elim _ _
  show out0_8 (blk0 m c t) (blk1 m c t) (blk2 m c t) (blk3 m c t) (blk4 m c t) (blk5 m c t) (blk6 m c t) (blk7 m c t) (ix2 p (0 : Fin 1))
    = outArr m c (((cfg0.win 8).blk t).view.emb (ix2 p (0 : Fin 1)))
  have hsel : blk1 m c t (ix2 p (0 : Fin 1)) = BitVec.ofNat 32 (sel8 (sels m c (ix1 (rowOf t p)))).val := by
    rw [blk1_apply]
    exact word_eq_sel8 _ (hr _).1 (hr _).2
  rw [Body.body_row (blk0 m c t) (blk1 m c t) (blk2 m c t) (blk3 m c t) (blk4 m c t) (blk5 m c t) (blk6 m c t) (blk7 m c t) p _ hsel]
  have hrow : (⟨((((cfg0.win 8).blk t).view.emb (ix2 p (0 : Fin 1))) 0).val, idx2_lt0 _⟩ : Fin 65536) = rowOf t p := by
    obtain ⟨-, -, -, -, -, -, -, -, -, -, -, -, -, -, -, -, e0, -⟩ := idx_facts t
    refine Fin.ext ?_
    show win0_8.index t (0 : Fin 2) * 2048 + 1 * p.val = 2048 * t.val + p.val
    omega
  show _ = rowVal m c _
  rw [hrow]
  unfold rowVal
  simp only [blk0_apply, blk2_apply, blk3_apply, blk4_apply, blk5_apply, blk6_apply, blk7_apply]

/-- An index of the result column is in point `t`'s block iff its row is among the block's 2048 rows. -/
theorem mem_blk8 (t : Fin cfg0.N) (i : S65536x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v8).slice (win0_8.rect t)).set ↔ _
  rw [View.set_slice_whole, Rect.mem_set_unit]
  exact Iff.rfl

/-- Every block index of the result column is some point's. -/
theorem idx_onto : ∀ q : Fin 32, ∃ t : Fin cfg0.N, win0_8.index t = ![q.val, 0] :=
  (by decide +kernel : ∀ q : Fin 32, ∃ t : Fin grid0.N, win0_8.index t = ![q.val, 0])

/-- The 32 blocks cover the result column. -/
theorem cover8 (i : S65536x1.Idx) : ∃ t : Fin cfg0.N, (cfg0.win 8).flush t = true ∧ i ∈ ((cfg0.win 8).blk t).view.set := by
  have hi0 : (i 0).val < 65536 := (i 0).isLt
  have hi1 : (i 1).val < 1 := (i 1).isLt
  obtain ⟨t, ht⟩ := idx_onto ⟨(i 0).val / 2048, by omega⟩
  have q0 : win0_8.index t (0 : Fin 2) = (i 0).val / 2048 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 1 ≤ (i 1).val ∧ (i 1).val < win0_8.index t (1 : Fin 2) * 1 + 1; omega

/-- THE RESULT COLUMN after the run holds every row's value. -/
theorem final8 (c : Dev nD) (hr : InRange m c) : (dats m 0 c).arrAt 8 cfg0.N = outArr m c :=
  (dats m 0 c).arrAt_eq_of_cover 8 (outArr m c) (fun t _ => flushed8_eq m c hr t) cover8

end Cert.Stacked.Blocks

end
-- ==== Proof.LibStackGather.lean ====
/-
  `stablehlo.gather` of a rank-3 table `[B, K, C]` at a rank-2 array `[B, 2]` of start indices `(row, selector)`,
  read at an index.

  What `table[rows, sel]` of a table `[B, K, C]` at two integer vectors `rows, sel : [B]` lowers to: the two vectors are
  joined into start indices `[B, 2]`, and the gather has offset_dims `[1]`, collapsed_slice_dims `[0, 1]`,
  start_index_map `[0, 1]`, index_vector_dim `1` and slice_sizes `[1, 1, C]`. Result element `(b, q)` is the table at
  `(r, k, q)`, where `r` is the start index's first component `idx[b, 0]` read as a signed integer and clamped into
  `[0, B - 1]` and `k` is its second component `idx[b, 1]` read signed and clamped into `[0, K - 1]`, as StableHLO's
  gather clamps every start index so that the slice fits.

  Also here: when the start indices are the two columns `rows` and `sel` joined along the second axis, and at row `b`
  the first column holds the word of `b` itself and the second the word of a selector `e` below `K`, the clamps do
  nothing and result element `(b, q)` is the table at `(b, e, q)`.
-/
import Idealize.ShloMosaic.Lib.ValueIdx
import Idealize.ShloMosaic.Lib.Pipeline.Value
import Idealize.ShloMosaic.Lib.StableHlo.Predicate

noncomputable section

namespace Cert.Lib.StackGather

open Idealize.ShloMosaic Idealize.ShloMosaic.ValueIdx

variable {α : Type}

/-- Those dimension numbers for a table `[B, K, C]`, start indices `[B, 2]` and result `[B, C]`; their conditions `wf`
    are decided on a program's literal shapes. -/
abbrev stackDims (B K C : Nat)
    (wf : GatherDims.WF ⟨3, ![B, K, C]⟩ ⟨2, ![B, 2]⟩ ⟨2, ![B, C]⟩ [1] [0, 1] [] [0, 1] [] 1 ![1, 1, C]) :
    GatherDims ⟨3, ![B, K, C]⟩ ⟨2, ![B, 2]⟩ ⟨2, ![B, C]⟩ where
  offsetDims := [1]
  collapsedSliceDims := [0, 1]
  operandBatchingDims := []
  startIndicesBatchingDims := []
  startIndexMap := [0, 1]
  indexVectorDim := 1
  sliceSizes := ![1, 1, C]
  wf := wf

private theorem mem0 : (0 : Fin 3) ∈ ([0, 1] : List (Fin 3)) := by decide
private theorem mem1 : (1 : Fin 3) ∈ ([0, 1] : List (Fin 3)) := by decide
private theorem nmem2 : ¬ (2 : Fin 3) ∈ ([0, 1] : List (Fin 3)) := by decide

section Coordinates
variable {B K C w : Nat}
  (wf : GatherDims.WF ⟨3, ![B, K, C]⟩ ⟨2, ![B, 2]⟩ ⟨2, ![B, C]⟩ [1] [0, 1] [] [0, 1] [] 1 ![1, 1, C])
  (idx : IVec ⟨2, ![B, 2]⟩ w) (b : Fin B) (q : Fin C)

/-- On the table's row axis the operand index is the first start component, clamped: the axis is collapsed, so no
    offset is added. -/
theorem operandIdx_row :
    ((stackDims B K C wf).operandIdx (ix2 b q) idx 0).val = min (idx (ix2 b 0)).toInt.toNat (B - 1) := by
  show (stackDims B K C wf).start (ix2 b q) idx 0 + (stackDims B K C wf).batchCoord (ix2 b q) 0
    + (stackDims B K C wf).offCoord (ix2 b q) 0 = _
  have hm : (0 : Fin (⟨3, ![B, K, C]⟩ : Shape).rank) ∈ (stackDims B K C wf).startIndexMap := mem0
  rw [GatherDims.batchCoord_eq_zero _ _ _ List.not_mem_nil,
    GatherDims.offCoord_eq_zero _ _ _ (fun h => ((GatherDims.mem_sKept _ _).mp h).1 mem0)]
  simp only [Nat.add_zero]
  unfold GatherDims.start
  rw [dif_pos hm]
  have hsi : (stackDims B K C wf).siIdx (ix2 b q) ⟨List.idxOf (0 : Fin (⟨3, ![B, K, C]⟩ : Shape).rank)
      (stackDims B K C wf).startIndexMap, List.idxOf_lt_length_iff.2 hm⟩ = ix2 b 0 := by
    funext c; refine Fin.ext ?_
    match c with
    | ⟨0, _⟩ => rfl
    | ⟨1, _⟩ => rfl
  rw [hsi]
  rfl

/-- On the table's selector axis the operand index is the second start component, clamped. -/
theorem operandIdx_sel :
    ((stackDims B K C wf).operandIdx (ix2 b q) idx 1).val = min (idx (ix2 b 1)).toInt.toNat (K - 1) := by
  show (stackDims B K C wf).start (ix2 b q) idx 1 + (stackDims B K C wf).batchCoord (ix2 b q) 1
    + (stackDims B K C wf).offCoord (ix2 b q) 1 = _
  have hm : (1 : Fin (⟨3, ![B, K, C]⟩ : Shape).rank) ∈ (stackDims B K C wf).startIndexMap := mem1
  rw [GatherDims.batchCoord_eq_zero _ _ _ List.not_mem_nil,
    GatherDims.offCoord_eq_zero _ _ _ (fun h => ((GatherDims.mem_sKept _ _).mp h).1 mem1)]
  simp only [Nat.add_zero]
  unfold GatherDims.start
  rw [dif_pos hm]
  have hsi : (stackDims B K C wf).siIdx (ix2 b q) ⟨List.idxOf (1 : Fin (⟨3, ![B, K, C]⟩ : Shape).rank)
      (stackDims B K C wf).startIndexMap, List.idxOf_lt_length_iff.2 hm⟩ = ix2 b 1 := by
    funext c; refine Fin.ext ?_
    match c with
    | ⟨0, _⟩ => rfl
    | ⟨1, _⟩ => rfl
  rw [hsi]
  rfl

/-- On the table's last axis the start is zero (the axis is not in the start index map) and the offset is the
    result's second coordinate. -/
theorem operandIdx_off :
    ((stackDims B K C wf).operandIdx (ix2 b q) idx 2).val = q.val := by
  show (stackDims B K C wf).start (ix2 b q) idx 2 + (stackDims B K C wf).batchCoord (ix2 b q) 2
    + (stackDims B K C wf).offCoord (ix2 b q) 2 = _
  have hm : ¬ (2 : Fin (⟨3, ![B, K, C]⟩ : Shape).rank) ∈ (stackDims B K C wf).startIndexMap := nmem2
  rw [GatherDims.batchCoord_eq_zero _ _ _ List.not_mem_nil]
  unfold GatherDims.start
  rw [dif_neg hm]
  -- the kept axes of the table are the last one alone, and the result's offset axis in its position is axis 1
  have hmem : (2 : Fin (⟨3, ![B, K, C]⟩ : Shape).rank) ∈ (stackDims B K C wf).sKept :=
    (GatherDims.mem_sKept _ _).2 ⟨nmem2, List.not_mem_nil⟩
  unfold GatherDims.offCoord
  rw [dif_pos hmem]
  simp only [List.getElem_singleton, Nat.zero_add]
  rfl

end Coordinates

/-- THE GATHER READ AT `(b, q)`: the table at the row `idx[b, 0]` and the selector `idx[b, 1]`, each read signed and
    clamped into its axis, and at `q` on the last axis. -/
theorem gather_stack_apply {B K C w : Nat} (hB : 0 < B) (hK : 0 < K)
    (wf : GatherDims.WF ⟨3, ![B, K, C]⟩ ⟨2, ![B, 2]⟩ ⟨2, ![B, C]⟩ [1] [0, 1] [] [0, 1] [] 1 ![1, 1, C])
    (x : (⟨3, ![B, K, C]⟩ : Shape).Idx → α) (idx : IVec ⟨2, ![B, 2]⟩ w) (b : Fin B) (q : Fin C) :
    Host.gather (stackDims B K C wf) x idx (ix2 b q)
      = x (ix3 ⟨min (idx (ix2 b 0)).toInt.toNat (B - 1), by omega⟩ ⟨min (idx (ix2 b 1)).toInt.toNat (K - 1), by omega⟩ q) := by
  unfold Host.gather
  congr 1
  funext a
  refine Fin.ext ?_
  match a with
  | ⟨0, _⟩ => exact operandIdx_row wf idx b q
  | ⟨1, _⟩ => exact operandIdx_sel wf idx b q
  | ⟨2, _⟩ => exact operandIdx_off wf idx b q

/-- A small natural number read back from its 32-bit word as a signed integer is itself. -/
theorem toNat_toInt_ofNat (n : Nat) (hn : n < 2 ^ 31) : (BitVec.ofNat 32 n).toInt.toNat = n := by
  rw [StableHlo.Predicate.toInt_ofNat_small n hn]
  exact Int.toNat_natCast n

/-- THE GATHER AT JOINED COLUMNS: with the start indices the two columns `r` and `s` joined along the second axis, `r`
    holding at row `b` the word of `b` and `s` the word of a selector `e`, result element `(b, q)` is the table at
    `(b, e, q)`. -/
theorem gather_stack_cols {B K C : Nat}
    (wf : GatherDims.WF ⟨3, ![B, K, C]⟩ ⟨2, ![B, 2]⟩ ⟨2, ![B, C]⟩ [1] [0, 1] [] [0, 1] [] 1 ![1, 1, C])
    (hcat : Shape.Concatenates [(⟨2, ![B, 1]⟩ : Shape), ⟨2, ![B, 1]⟩] ⟨2, ![B, 2]⟩ 1)
    (T : (⟨3, ![B, K, C]⟩ : Shape).Idx → α) (r s : IVec ⟨2, ![B, 1]⟩ 32) (b : Fin B) (e : Fin K)
    (hb : b.val < 2 ^ 31) (he : e.val < 2 ^ 31)
    (hr : r (ix2 b 0) = BitVec.ofNat 32 b.val) (hs : s (ix2 b 0) = BitVec.ofNat 32 e.val) (q : Fin C) :
    Host.gather (stackDims B K C wf) T
        (concatenate ⟨2, ![B, 2]⟩ 1 [⟨⟨2, ![B, 1]⟩, r⟩, ⟨⟨2, ![B, 1]⟩, s⟩] hcat) (ix2 b q)
      = T (ix3 b e q) := by
  have h0 : concatenate ⟨2, ![B, 2]⟩ 1 [⟨⟨2, ![B, 1]⟩, r⟩, ⟨⟨2, ![B, 1]⟩, s⟩] hcat (ix2 b 0) = r (ix2 b 0) :=
    concatenate_pair_apply_left 1 r s hcat (ix2 b 0) rfl (ix2 b 0) (fun a => match a with
      | ⟨0, _⟩ => rfl
      | ⟨1, _⟩ => rfl)
  have h1 : concatenate ⟨2, ![B, 2]⟩ 1 [⟨⟨2, ![B, 1]⟩, r⟩, ⟨⟨2, ![B, 1]⟩, s⟩] hcat (ix2 b 1) = s (ix2 b 0) :=
    concatenate_pair_apply_right 1 r s hcat (ix2 b 1) rfl rfl (ix2 b 0) (fun a ha => match a, ha with
      | ⟨0, _⟩, _ => rfl
      | ⟨1, _⟩, ha => absurd rfl ha) rfl
  rw [gather_stack_apply (Nat.lt_of_le_of_lt (Nat.zero_le _) b.isLt) (Nat.lt_of_le_of_lt (Nat.zero_le _) e.isLt)]
  congr 1
  funext a
  refine Fin.ext ?_
  match a with
  | ⟨0, _⟩ =>
    show min _ (B - 1) = b.val
    rw [h0, hr, toNat_toInt_ofNat _ hb]
    have := b.isLt; omega
  | ⟨1, _⟩ =>
    show min _ (K - 1) = e.val
    rw [h1, hs, toNat_toInt_ofNat _ he]
    have := e.isLt; omega
  | ⟨2, _⟩ => rfl

end Cert.Lib.StackGather

end
-- ==== Proof.RefRow1.lean ====
/-
  The reference program read at one batch row, first half: from the inputs to the second layer's 30 inputs.

  Row `b` of the batch carries the features `x0 (b, ·)` and a selector word `x1 b`, assumed to be the word of a number
  `e` below 8. The first layer is computed for all eight stacks, `x0 @ x2ᵀ + x3` reshaped to `[row, stack, output]`,
  and for the shared outputs, `x0 @ x4ᵀ + x5`; the row then gathers its own stack out of the table. The gather's start
  indices are two columns: the row numbers (an iota, passed through a select on "negative" that is never taken) and the
  selectors (the same select on `x1`, not taken either for a word below 8), so at row `b` the start index is `(b, e)`
  and no clamp acts. What the gather returns at `(b, q)` is therefore the first-layer output `16 e + q`: the kept
  stack of the row specification, whose weight table is the stacks' table followed by the shared one. Adding the shared
  outputs on the first 15 columns gives the hidden vector; its scaled squares joined to it, clamped to `[0, 1]`, are
  the second layer's inputs.
-/
import proofs.«404139_j62483184222247_2_alg».proof.Proof.RefReadP
import proofs.«404139_j62483184222247_2_alg».proof.Proof.RowSpec
import proofs.«404139_j62483184222247_2_alg».proof.Proof.LibStackGather
import Idealize.ShloMosaic.Lib.Pipeline.Value
import Idealize.ShloMosaic.Lib.ValueIdx
import Idealize.ShloMosaic.Lib.Affine
import Idealize.ShloMosaic.Lib.StableHlo.Predicate

noncomputable section

open scoped BigOperators

namespace Cert.Stacked.Ref

open Cert.ReferenceIdeal Cert.ReferenceIdeal.Gen Cert.ReferenceIdeal.ReadP Cert.Stacked Idealize.ShloMosaic
  Idealize.ShloMosaic.ValueIdx Cert.Lib.StackGather

variable (x0 : (⟨S65536x1024, .f32⟩ : BufTy).Contents (Elt Ideal)) (x1 : (⟨S65536, .i32⟩ : BufTy).Contents (Elt Ideal))
  (x2 : (⟨S128x1024, .f32⟩ : BufTy).Contents (Elt Ideal)) (x3 : (⟨S128, .f32⟩ : BufTy).Contents (Elt Ideal))
  (x4 : (⟨S16x1024, .f32⟩ : BufTy).Contents (Elt Ideal)) (x5 : (⟨S16, .f32⟩ : BufTy).Contents (Elt Ideal))
  (x6 : (⟨S256x30, .f32⟩ : BufTy).Contents (Elt Ideal)) (x7 : (⟨S256, .f32⟩ : BufTy).Contents (Elt Ideal))
  (x8 : (⟨S8x32, .f32⟩ : BufTy).Contents (Elt Ideal)) (x9 : (⟨S8, .f32⟩ : BufTy).Contents (Elt Ideal))
  (b : Fin 65536) (e : Fin 8)

/-! ## The first layer -/

theorem lidx_v2 (j : Fin 128) (k : Fin 1024) : lidx_main_v2 (ix2 b j) k = ix2 b k :=
  funext fun a => match a with | ⟨0, _⟩ => rfl | ⟨1, _⟩ => rfl
theorem ridx_v2 (j : Fin 128) (k : Fin 1024) : idx_main_v1 (ridx_main_v2 (ix2 b j) k) = ix2 j k :=
  funext fun a => match a with | ⟨0, _⟩ => rfl | ⟨1, _⟩ => rfl
theorem bias_v4 (j : Fin 128) : idx_main_v3 (idx_main_v4 (ix2 b j)) = ix1 j :=
  funext fun a => match a with | ⟨0, _⟩ => rfl

/-- The eight stacks' affine map at row `b`, output `j`. -/
theorem stacks1_apply (j : Fin 128) :
    val_main_v5 (F := Ideal) x0 x2 x3 (ix2 b j) = (∑ k : Fin 1024, x0 (ix2 b k) * x2 (ix2 j k)) + x3 (ix1 j) := by
  rw [val_main_v5_apply, val_main_v2_apply, val_main_v4_apply, val_main_v3_apply]
  simp only [val_main_v1_apply, lidx_v2, ridx_v2, bias_v4, Ideal.addf_def]

theorem lidx_v8 (q : Fin 16) (k : Fin 1024) : lidx_main_v8 (ix2 b q) k = ix2 b k :=
  funext fun a => match a with | ⟨0, _⟩ => rfl | ⟨1, _⟩ => rfl
theorem ridx_v8 (q : Fin 16) (k : Fin 1024) : idx_main_v7 (ridx_main_v8 (ix2 b q) k) = ix2 q k :=
  funext fun a => match a with | ⟨0, _⟩ => rfl | ⟨1, _⟩ => rfl
theorem bias_v10 (q : Fin 16) : idx_main_v9 (idx_main_v10 (ix2 b q)) = ix1 q :=
  funext fun a => match a with | ⟨0, _⟩ => rfl

/-- The shared outputs' affine map at row `b`, output `q`. -/
theorem shared1_apply (q : Fin 16) :
    val_main_v11 (F := Ideal) x0 x4 x5 (ix2 b q) = (∑ k : Fin 1024, x0 (ix2 b k) * x4 (ix2 q k)) + x5 (ix1 q) := by
  rw [val_main_v11_apply, val_main_v8_apply, val_main_v10_apply, val_main_v9_apply]
  simp only [val_main_v7_apply, lidx_v8, ridx_v8, bias_v10, Ideal.addf_def]

theorem idx_v6 (c : Fin 8) (q : Fin 16) : idx_main_v6 (ix3 b c q) = ix2 b ⟨16 * c.val + q.val, by omega⟩ :=
  funext fun a => Fin.ext (by
    have hb := b.isLt; have hc := c.isLt; have hq := q.isLt
    match a with
    | ⟨0, _⟩ => show ((b.val * 8 + c.val) * 16 + q.val) / 128 = b.val; omega
    | ⟨1, _⟩ => show ((b.val * 8 + c.val) * 16 + q.val) % 128 = 16 * c.val + q.val; omega)

/-- The stacks' outputs as a table `[row, stack, output]`. -/
theorem table1_apply (c : Fin 8) (q : Fin 16) :
    val_main_v6 (F := Ideal) x0 x2 x3 (ix3 b c q)
      = (∑ k : Fin 1024, x0 (ix2 b k) * x2 (ix2 ⟨16 * c.val + q.val, by omega⟩ k)) + x3 (ix1 ⟨16 * c.val + q.val, by omega⟩) := by
  rw [val_main_v6_apply, idx_v6, stacks1_apply]

/-! ## The three gathers' dimension numbers -/

/-- The printed dimension numbers of the three gathers are the stacked-table ones, at 16, 32 and 1 outputs a stack. -/
theorem gather1_dims : gather_S65536x8x16_S65536x2_S65536x16_1_01_n_n_01_1_1116
    = stackDims 65536 8 16 gather_S65536x8x16_S65536x2_S65536x16_1_01_n_n_01_1_1116.wf := rfl
theorem gather2_dims : gather_S65536x8x32_S65536x2_S65536x32_1_01_n_n_01_1_1132
    = stackDims 65536 8 32 gather_S65536x8x32_S65536x2_S65536x32_1_01_n_n_01_1_1132.wf := rfl
theorem gather3_dims : gather_S65536x8x1_S65536x2_S65536x1_1_01_n_n_01_1_111
    = stackDims 65536 8 1 gather_S65536x8x1_S65536x2_S65536x1_1_01_n_n_01_1_111.wf := rfl

/-! ## The start indices of the three gathers -/

/-- A select on "the word is negative" keeps a small natural number's word. -/
theorem keep_small (n : Nat) (hn : n < 2 ^ 31) (c : BitVec 32) :
    Scalar.select (IntOp.cmpi .slt (BitVec.ofNat 32 n) 0#32) (IntOp.addi (BitVec.ofNat 32 n) c) (BitVec.ofNat 32 n)
      = BitVec.ofNat 32 n := by
  have h : IntOp.cmpi .slt (BitVec.ofNat 32 n) 0#32 = 0#1 := eq_zero_of_ne_one (fun h1 => by
    rw [IntOp.cmpi_slt, StableHlo.Predicate.toInt_ofNat_small n hn, BitVec.toInt_zero] at h1
    omega)
  rw [h, select_zero]

theorem idx_col (b : Fin 65536) : idx_main_v22 (ix2 b 0) = ix1 b := funext fun a => match a with | ⟨0, _⟩ => rfl
theorem idx_col23 (b : Fin 65536) : idx_main_v23 (ix2 b 0) = ix1 b := funext fun a => match a with | ⟨0, _⟩ => rfl

/-- The row column of the first gather holds the row's own number. -/
theorem rows22 : val_main_v22 (F := Ideal) (ix2 b 0) = BitVec.ofNat 32 b.val := by
  rw [val_main_v22_apply, idx_col, val_main_v16_apply, val_main_v13_apply, val_main_v15_apply, val_main_v0_apply,
    val_main_v12_apply, val_main_c_apply]
  exact keep_small b.val (by have := b.isLt; omega) _

/-- The selector column of the first gather holds the row's selector. -/
theorem sel23 (he : x1 (ix1 b) = BitVec.ofNat 32 e.val) : val_main_v23 (F := Ideal) x1 (ix2 b 0) = BitVec.ofNat 32 e.val := by
  rw [val_main_v23_apply, idx_col23, val_main_v21_apply, val_main_v18_apply, val_main_v20_apply, val_main_v17_apply, val_main_c_1_apply, he]
  exact keep_small e.val (by have := e.isLt; omega) _

/-- The first gather at row `b` reads the table at the row's own stack. -/
theorem gather1_apply (he : x1 (ix1 b) = BitVec.ofNat 32 e.val) (q : Fin 16) :
    val_main_v25 (F := Ideal) x0 x1 x2 x3 (ix2 b q) = val_main_v6 (F := Ideal) x0 x2 x3 (ix3 b e q) := by
  unfold val_main_v25 val_main_v24
  rw [gather1_dims]
  exact gather_stack_cols _ _ _ _ _ b e (by have := b.isLt; omega) (by have := e.isLt; omega) (rows22 b) (sel23 x1 b e he) q

/-! ## The hidden vector and the second layer's inputs -/

/-- The first layer's weight table and bias vector in two parts: the eight stacks, then the shared outputs. -/
abbrev W1 : Fin 144 → Fin 1024 → EReal := fuse (fun j k => x2 (ix2 j k)) (fun j k => x4 (ix2 j k))
abbrev B1 : Fin 144 → EReal := fuse (fun j => x3 (ix1 j)) (fun j => x5 (ix1 j))

/-- The first gather is the kept stack's outputs. -/
theorem picked1_eq (he : x1 (ix1 b) = BitVec.ofNat 32 e.val) (q : Fin 16) :
    val_main_v25 (F := Ideal) x0 x1 x2 x3 (ix2 b q) = picked1 (fun k => x0 (ix2 b k)) e (W1 x2 x4) (B1 x3 x5) q := by
  rw [gather1_apply x0 x1 x2 x3 b e he, table1_apply, picked1_fuse]

/-- The shared affine map is the shared outputs. -/
theorem shared1_eq (q : Fin 16) :
    val_main_v11 (F := Ideal) x0 x4 x5 (ix2 b q) = shared1 (fun k => x0 (ix2 b k)) (W1 x2 x4) (B1 x3 x5) q := by
  rw [shared1_apply, shared1_fuse]

theorem idx_v26 (q : Fin 15) : idx_main_v26 (ix2 b q) = ix2 b ⟨q.val, by omega⟩ :=
  funext fun a => match a with | ⟨0, _⟩ => rfl | ⟨1, _⟩ => rfl
theorem idx_v28 (q : Fin 15) : idx_main_v28 (ix2 b q) = ix2 b ⟨q.val, by omega⟩ :=
  funext fun a => match a with | ⟨0, _⟩ => rfl | ⟨1, _⟩ => rfl

/-- The sum of the kept stack and the shared outputs, on the first 15 outputs. -/
theorem hidden_apply (he : x1 (ix1 b) = BitVec.ofNat 32 e.val) (q : Fin 15) :
    val_main_v30 (F := Ideal) x0 x1 x2 x3 x4 x5 (ix2 b q) = hidden (fun k => x0 (ix2 b k)) e (W1 x2 x4) (B1 x3 x5) q := by
  rw [val_main_v30_apply, val_main_v26_apply, val_main_v28_apply, idx_v26, idx_v28,
    picked1_eq x0 x1 x2 x3 x4 x5 b e he, shared1_eq x0 x2 x3 x4 x5 b]
  rfl

/-- The scaled squares. -/
theorem squares_apply (he : x1 (ix1 b) = BitVec.ofNat 32 e.val) (q : Fin 15) :
    val_main_v33 (F := Ideal) x0 x1 x2 x3 x4 x5 (ix2 b q)
      = hidden (fun k => x0 (ix2 b k)) e (W1 x2 x4) (B1 x3 x5) q * hidden (fun k => x0 (ix2 b k)) e (W1 x2 x4) (B1 x3 x5) q
        * shrink := by
  rw [val_main_v33_apply, val_main_v31_apply, val_main_v32_apply, val_main_cst_apply, hidden_apply x0 x1 x2 x3 x4 x5 b e he]
  rfl

/-- The squares and the sums joined: the first 15 columns are the squares, the last 15 the sums. -/
theorem joined_apply (he : x1 (ix1 b) = BitVec.ofNat 32 e.val) (r : Fin 30) :
    val_main_v34 (F := Ideal) x0 x1 x2 x3 x4 x5 (ix2 b r)
      = if h : r.val < 15 then
          hidden (fun k => x0 (ix2 b k)) e (W1 x2 x4) (B1 x3 x5) ⟨r.val, h⟩
            * hidden (fun k => x0 (ix2 b k)) e (W1 x2 x4) (B1 x3 x5) ⟨r.val, h⟩ * shrink
        else hidden (fun k => x0 (ix2 b k)) e (W1 x2 x4) (B1 x3 x5) ⟨r.val - 15, by omega⟩ := by
  unfold val_main_v34
  by_cases h : r.val < 15
  · rw [dif_pos h, ← squares_apply x0 x1 x2 x3 x4 x5 b e he]
    exact concatenate_pair_apply_left (s₁ := S65536x15) (s₂ := S65536x15) 1 _ _ _ (ix2 b r) rfl (ix2 b ⟨r.val, h⟩) (fun a => match a with
      | ⟨0, _⟩ => rfl
      | ⟨1, _⟩ => rfl)
  · rw [dif_neg h, ← hidden_apply x0 x1 x2 x3 x4 x5 b e he]
    exact concatenate_pair_apply_right (s₁ := S65536x15) (s₂ := S65536x15) 1 _ _ _ (ix2 b r) rfl rfl (ix2 b ⟨r.val - 15, by omega⟩) (fun a ha => match a, ha with
      | ⟨0, _⟩, _ => rfl
      | ⟨1, _⟩, ha => absurd rfl ha) (by show r.val - 15 + 15 = r.val; omega)

/-- The second layer's inputs: the joined columns clamped. -/
theorem feat_apply (he : x1 (ix1 b) = BitVec.ofNat 32 e.val) (r : Fin 30) :
    val_main_v35 (F := Ideal) x0 x1 x2 x3 x4 x5 (ix2 b r) = feat (fun k => x0 (ix2 b k)) e (W1 x2 x4) (B1 x3 x5) r := by
  rw [val_main_v35_apply, val_main_call0_v4_apply, val_main_call0_v3_apply, val_main_cst_4_apply, val_main_call0_v2_apply,
    val_main_call0_v1_apply, val_main_call0_v0_apply, val_main_cst_3_apply, joined_apply x0 x1 x2 x3 x4 x5 b e he]
  rfl

end Cert.Stacked.Ref

end
-- ==== Proof.RefRow.lean ====
/-
  The reference program read at one batch row, second half: from the second layer to the result.

  The second layer is again computed for all eight stacks, `feat @ x6ᵀ + x7` reshaped to `[row, stack, output]`, the
  row gathers its own stack `e` and clamps it; the last layer `picked2 @ x8ᵀ + x9` has one output a stack, of which the
  row gathers the one of its own stack. The result adds to it the 16th shared output and the 16th output of the kept
  first-layer stack, in that order: the row specification's result.
-/
import proofs.«404139_j62483184222247_2_alg».proof.Proof.RefRow1

noncomputable section

open scoped BigOperators

namespace Cert.Stacked.Ref

open Cert.ReferenceIdeal Cert.ReferenceIdeal.Gen Cert.ReferenceIdeal.ReadP Cert.Stacked Idealize.ShloMosaic
  Idealize.ShloMosaic.ValueIdx Cert.Lib.StackGather

variable (x0 : (⟨S65536x1024, .f32⟩ : BufTy).Contents (Elt Ideal)) (x1 : (⟨S65536, .i32⟩ : BufTy).Contents (Elt Ideal))
  (x2 : (⟨S128x1024, .f32⟩ : BufTy).Contents (Elt Ideal)) (x3 : (⟨S128, .f32⟩ : BufTy).Contents (Elt Ideal))
  (x4 : (⟨S16x1024, .f32⟩ : BufTy).Contents (Elt Ideal)) (x5 : (⟨S16, .f32⟩ : BufTy).Contents (Elt Ideal))
  (x6 : (⟨S256x30, .f32⟩ : BufTy).Contents (Elt Ideal)) (x7 : (⟨S256, .f32⟩ : BufTy).Contents (Elt Ideal))
  (x8 : (⟨S8x32, .f32⟩ : BufTy).Contents (Elt Ideal)) (x9 : (⟨S8, .f32⟩ : BufTy).Contents (Elt Ideal))
  (b : Fin 65536) (e : Fin 8)

/-! ## The second layer -/

theorem lidx_v37 (j : Fin 256) (k : Fin 30) : lidx_main_v37 (ix2 b j) k = ix2 b k :=
  funext fun a => match a with | ⟨0, _⟩ => rfl | ⟨1, _⟩ => rfl
theorem ridx_v37 (j : Fin 256) (k : Fin 30) : idx_main_v36 (ridx_main_v37 (ix2 b j) k) = ix2 j k :=
  funext fun a => match a with | ⟨0, _⟩ => rfl | ⟨1, _⟩ => rfl
theorem bias_v39 (j : Fin 256) : idx_main_v38 (idx_main_v39 (ix2 b j)) = ix1 j :=
  funext fun a => match a with | ⟨0, _⟩ => rfl

/-- The second layer's affine map at row `b`, output `j`. -/
theorem dense2_apply (he : x1 (ix1 b) = BitVec.ofNat 32 e.val) (j : Fin 256) :
    val_main_v40 (F := Ideal) x0 x1 x2 x3 x4 x5 x6 x7 (ix2 b j)
      = dense2 (fun k => x0 (ix2 b k)) e (W1 x2 x4) (B1 x3 x5) (fun j r => x6 (ix2 j r)) (fun j => x7 (ix1 j)) j := by
  rw [val_main_v40_apply, val_main_v37_apply, val_main_v39_apply, val_main_v38_apply]
  simp only [val_main_v36_apply, lidx_v37, ridx_v37, bias_v39, feat_apply x0 x1 x2 x3 x4 x5 b e he, Ideal.addf_def]
  rfl

theorem idx_v41 (c : Fin 8) (s : Fin 32) : idx_main_v41 (ix3 b c s) = ix2 b ⟨32 * c.val + s.val, by omega⟩ :=
  funext fun a => Fin.ext (by
    have hb := b.isLt; have hc := c.isLt; have hs := s.isLt
    match a with
    | ⟨0, _⟩ => show ((b.val * 8 + c.val) * 32 + s.val) / 256 = b.val; omega
    | ⟨1, _⟩ => show ((b.val * 8 + c.val) * 32 + s.val) % 256 = 32 * c.val + s.val; omega)

theorem idx_col52 (b : Fin 65536) : idx_main_v52 (ix2 b 0) = ix1 b := funext fun a => match a with | ⟨0, _⟩ => rfl
theorem idx_col53 (b : Fin 65536) : idx_main_v53 (ix2 b 0) = ix1 b := funext fun a => match a with | ⟨0, _⟩ => rfl

/-- The row column of the second gather holds the row's own number. -/
theorem rows52 : val_main_v52 (F := Ideal) (ix2 b 0) = BitVec.ofNat 32 b.val := by
  rw [val_main_v52_apply, idx_col52, val_main_v46_apply, val_main_v43_apply, val_main_v45_apply, val_main_v0_apply,
    val_main_v42_apply, val_main_c_5_apply]
  exact keep_small b.val (by have := b.isLt; omega) _

/-- The selector column of the second gather holds the row's selector. -/
theorem sel53 (he : x1 (ix1 b) = BitVec.ofNat 32 e.val) : val_main_v53 (F := Ideal) x1 (ix2 b 0) = BitVec.ofNat 32 e.val := by
  rw [val_main_v53_apply, idx_col53, val_main_v51_apply, val_main_v48_apply, val_main_v50_apply, val_main_v47_apply,
    val_main_c_7_apply, he]
  exact keep_small e.val (by have := e.isLt; omega) _

/-- The second gather at row `b` reads the table at the row's own stack. -/
theorem gather2_apply (he : x1 (ix1 b) = BitVec.ofNat 32 e.val) (s : Fin 32) :
    val_main_v55 (F := Ideal) x0 x1 x2 x3 x4 x5 x6 x7 (ix2 b s)
      = val_main_v41 (F := Ideal) x0 x1 x2 x3 x4 x5 x6 x7 (ix3 b e s) := by
  unfold val_main_v55 val_main_v54
  rw [gather2_dims]
  exact gather_stack_cols _ _ _ _ _ b e (by have := b.isLt; omega) (by have := e.isLt; omega) (rows52 b) (sel53 x1 b e he) s

/-- The kept second-layer stack, clamped. -/
theorem picked2_apply (he : x1 (ix1 b) = BitVec.ofNat 32 e.val) (s : Fin 32) :
    val_main_v56 (F := Ideal) x0 x1 x2 x3 x4 x5 x6 x7 (ix2 b s)
      = picked2 (fun k => x0 (ix2 b k)) e (W1 x2 x4) (B1 x3 x5) (fun j r => x6 (ix2 j r)) (fun j => x7 (ix1 j)) s := by
  rw [val_main_v56_apply, val_main_call1_v4_apply, val_main_call1_v3_apply, val_main_cst_10_apply, val_main_call1_v2_apply,
    val_main_call1_v1_apply, val_main_call1_v0_apply, val_main_cst_9_apply, gather2_apply x0 x1 x2 x3 x4 x5 x6 x7 b e he,
    val_main_v41_apply, idx_v41, dense2_apply x0 x1 x2 x3 x4 x5 x6 x7 b e he]
  rfl

/-! ## The last layer and the result -/

theorem lidx_v58 (c : Fin 8) (k : Fin 32) : lidx_main_v58 (ix2 b c) k = ix2 b k :=
  funext fun a => match a with | ⟨0, _⟩ => rfl | ⟨1, _⟩ => rfl
theorem ridx_v58 (c : Fin 8) (k : Fin 32) : idx_main_v57 (ridx_main_v58 (ix2 b c) k) = ix2 c k :=
  funext fun a => match a with | ⟨0, _⟩ => rfl | ⟨1, _⟩ => rfl
theorem bias_v60 (c : Fin 8) : idx_main_v59 (idx_main_v60 (ix2 b c)) = ix1 c :=
  funext fun a => match a with | ⟨0, _⟩ => rfl

/-- The last layer's affine map at row `b`, output `c`. -/
theorem out_apply (he : x1 (ix1 b) = BitVec.ofNat 32 e.val) (c : Fin 8) :
    val_main_v61 (F := Ideal) x0 x1 x2 x3 x4 x5 x6 x7 x8 x9 (ix2 b c)
      = (∑ s : Fin 32, picked2 (fun k => x0 (ix2 b k)) e (W1 x2 x4) (B1 x3 x5) (fun j r => x6 (ix2 j r)) (fun j => x7 (ix1 j)) s
          * x8 (ix2 c s)) + x9 (ix1 c) := by
  rw [val_main_v61_apply, val_main_v58_apply, val_main_v60_apply, val_main_v59_apply]
  simp only [val_main_v57_apply, lidx_v58, ridx_v58, bias_v60, picked2_apply x0 x1 x2 x3 x4 x5 x6 x7 b e he, Ideal.addf_def]

theorem idx_v62 (c : Fin 8) : idx_main_v62 (ix3 b c 0) = ix2 b c :=
  funext fun a => Fin.ext (by
    have hb := b.isLt; have hc := c.isLt
    match a with
    | ⟨0, _⟩ => show ((b.val * 8 + c.val) * 1 + 0) / 8 = b.val; omega
    | ⟨1, _⟩ => show ((b.val * 8 + c.val) * 1 + 0) % 8 = c.val; omega)

theorem idx_col73 (b : Fin 65536) : idx_main_v73 (ix2 b 0) = ix1 b := funext fun a => match a with | ⟨0, _⟩ => rfl
theorem idx_col74 (b : Fin 65536) : idx_main_v74 (ix2 b 0) = ix1 b := funext fun a => match a with | ⟨0, _⟩ => rfl

/-- The row column of the third gather holds the row's own number. -/
theorem rows73 : val_main_v73 (F := Ideal) (ix2 b 0) = BitVec.ofNat 32 b.val := by
  rw [val_main_v73_apply, idx_col73, val_main_v67_apply, val_main_v64_apply, val_main_v66_apply, val_main_v0_apply,
    val_main_v63_apply, val_main_c_11_apply]
  exact keep_small b.val (by have := b.isLt; omega) _

/-- The selector column of the third gather holds the row's selector. -/
theorem sel74 (he : x1 (ix1 b) = BitVec.ofNat 32 e.val) : val_main_v74 (F := Ideal) x1 (ix2 b 0) = BitVec.ofNat 32 e.val := by
  rw [val_main_v74_apply, idx_col74, val_main_v72_apply, val_main_v69_apply, val_main_v71_apply, val_main_v68_apply,
    val_main_c_13_apply, he]
  exact keep_small e.val (by have := e.isLt; omega) _

/-- The third gather at row `b` reads the table at the row's own stack. -/
theorem gather3_apply (he : x1 (ix1 b) = BitVec.ofNat 32 e.val) :
    val_main_v76 (F := Ideal) x0 x1 x2 x3 x4 x5 x6 x7 x8 x9 (ix2 b 0)
      = val_main_v62 (F := Ideal) x0 x1 x2 x3 x4 x5 x6 x7 x8 x9 (ix3 b e 0) := by
  unfold val_main_v76 val_main_v75
  rw [gather3_dims]
  exact gather_stack_cols _ _ _ _ _ b e (by have := b.isLt; omega) (by have := e.isLt; omega) (rows73 b) (sel74 x1 b e he) 0

theorem idx_v27 : idx_main_v27 (ix2 b 0) = ix2 b ⟨15, by omega⟩ :=
  funext fun a => match a with | ⟨0, _⟩ => rfl | ⟨1, _⟩ => rfl
theorem idx_v29 : idx_main_v29 (ix2 b 0) = ix2 b ⟨15, by omega⟩ :=
  funext fun a => match a with | ⟨0, _⟩ => rfl | ⟨1, _⟩ => rfl

/-- THE REFERENCE AT ROW `b`: the row specification at the row's data, its selector and the parameter tables. -/
theorem ref_row (he : x1 (ix1 b) = BitVec.ofNat 32 e.val) :
    Cert.ReferenceIdeal.ReadP.val_main_v78 (F := Ideal) x0 x1 x2 x3 x4 x5 x6 x7 x8 x9 (ix2 b 0)
      = rowOut (fun k => x0 (ix2 b k)) e
          (fuse (fun j k => x2 (ix2 j k)) (fun j k => x4 (ix2 j k))) (fuse (fun j => x3 (ix1 j)) (fun j => x5 (ix1 j)))
          (fun j r => x6 (ix2 j r)) (fun j => x7 (ix1 j)) (fun c s => x8 (ix2 c s)) (fun c => x9 (ix1 c)) := by
  rw [val_main_v78_apply, val_main_v77_apply, gather3_apply x0 x1 x2 x3 x4 x5 x6 x7 x8 x9 b e he, val_main_v62_apply, idx_v62,
    out_apply x0 x1 x2 x3 x4 x5 x6 x7 x8 x9 b e he, val_main_v29_apply, idx_v29, shared1_eq x0 x2 x3 x4 x5 b,
    val_main_v27_apply, idx_v27, picked1_eq x0 x1 x2 x3 x4 x5 b e he]
  rfl

end Cert.Stacked.Ref

end
-- ==== Proof.lean ====
/-
  The certificate of the per-row expert network against its jnp reference, over the extended reals.

  Both programs compute, for every batch row `R` with selector `e` in `[0, 8)`, the same number (Proof/RowSpec.lean's
  `rowOut`): a first affine layer of eight stacks of 16 outputs plus 16 shared outputs, of which the row keeps stack `e`;
  the first 15 kept-plus-shared sums, squared and scaled by 127/128, and the sums themselves, clamped to `[0, 1]`, feed a
  second affine layer of eight stacks of 32 outputs, of which the row again keeps stack `e`, clamped; the result is the
  inner product of those 32 numbers with row `e` of the last table, plus entry `e` of the last bias, plus the 16th
  shared output, plus the 16th output of the kept first-layer stack.

  The kernel selects by the indicator of `selector = c` (a sum of eight indicator-weighted slices, and for the last
  layer a product with the 8 × 32 indicator matrix); the reference selects by indexing `table[rows, selector]`. The two
  agree exactly where the selector is in `[0, 8)`, which the precondition states (outside it the reference's indexing
  wraps or clamps while the indicator selects nothing). On the extended reals `0 · v = 0` and `1 · v = v` for every
  `v`, so the indicator sums need no finiteness; the float conjuncts of the precondition are not used.

  The kernel's side: what the body leaves at a row of its block (Proof/BodyRow.lean), what the region finds in the
  arrays the host operations wrote (Proof/Staged.lean), and the 32 blocks tiling the result column (Proof/Blocks.lean),
  over the generated frame and blockwise value leg. The reference's side: its run (Proof/RefRunP.lean), read stage by stage at a
  row (Proof/RefReadP.lean, Proof/RefRow.lean). The selector range out of the printed precondition: Proof/SelectorRange.lean.
-/
import proofs.«404139_j62483184222247_2_alg».proof.Defs
import proofs.«404139_j62483184222247_2_alg».proof.Proof.Gen.Kernel
import proofs.«404139_j62483184222247_2_alg».proof.Proof.Gen.Kernel.Frame
import proofs.«404139_j62483184222247_2_alg».proof.Proof.Gen.KernelIdeal
import proofs.«404139_j62483184222247_2_alg».proof.Proof.Gen.KernelIdeal.Frame
import proofs.«404139_j62483184222247_2_alg».proof.Proof.Gen.KernelIdeal.Value
import proofs.«404139_j62483184222247_2_alg».proof.Proof.Gen.ReferenceIdeal
import proofs.«404139_j62483184222247_2_alg».proof.Proof.RefRunP
import proofs.«404139_j62483184222247_2_alg».proof.Proof.RefReadP
import proofs.«404139_j62483184222247_2_alg».proof.Proof.Gen.Pre_finite_inputs
import proofs.«404139_j62483184222247_2_alg».proof.Proof.SelectorRange
import proofs.«404139_j62483184222247_2_alg».proof.Proof.Blocks
import proofs.«404139_j62483184222247_2_alg».proof.Proof.RefRow
import Idealize.ShloMosaic.Adequacy
import Idealize.ShloMosaic.Init

noncomputable section

namespace Cert.Proof

open Idealize.ShloMosaic Idealize.ShloMosaic.TcCoe Idealize.ShloMosaic.ValueIdx Idealize.SL.Sem
open Cert.Stacked Cert.Stacked.Staged

/-- The three frames: the two kernels' generated frames, and the reference's generated run with its result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Under the precondition every selector of the launch memory is in `[0, 8)`. -/
theorem in_range (m : (ℓ : Loc Cert.KernelIdeal.nD Cert.KernelIdeal.τ Cert.KernelIdeal.sig) → Buf (Elt Ideal) ℓ)
    (hpre : Cert.Pre_KernelIdeal m) (c : Dev Cert.KernelIdeal.nD) : Blocks.InRange m c :=
  fun i => selector_range (F := Ideal) _ _ _ _ _ _ _ _ _ _ (hpre c) i

/-- Both programs end with the result column holding every row's value. -/
theorem algebraic : Cert.algebraic_KernelIdeal_ReferenceIdeal := by
  intro m ρ m' ρ' hpre hagree
  refine ⟨fun c => outArr m c, ?_, ?_⟩
  · exact (θ_run Cert.KernelIdeal.defs _ _).mono
      (fun r h c => ⟨(h c).1.trans (Blocks.final8 m c (in_range m hpre c)), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v78_eq, a0, a1, a2, a3, a4, a5, a6, a7, a8, a9]
    funext i
    obtain ⟨b, u, rfl⟩ : ∃ (b : Fin 65536) (u : Fin 1), i = ix2 b u := ⟨i 0, i 1, eq_ix2 i⟩
    obtain rfl : u = 0 := Subsingleton.elim _ _
    have hr := in_range m hpre c (ix1 b)
    exact Ref.ref_row _ _ _ _ _ _ _ _ _ _ b (sel8 (sels m c (ix1 b))) (word_eq_sel8 _ hr.1 hr.2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
